-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8000000 : Shape := ⟨2, ![2, 8000000]⟩
abbrev S100000x1 : Shape := ⟨2, ![100000, 1]⟩
abbrev S256x1 : Shape := ⟨2, ![256, 1]⟩
abbrev S8000000 : Shape := ⟨1, ![8000000]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S8000000 : S_.BroadcastsInDim S8000000 (![] : Fin 0 → Fin S8000000.rank)
  reducesTo_S8000000_S_d0 : S8000000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S2x8000000 32) (main_arg1 : FVec F S100000x1 .f32) (main_arg2 : FVec F S256x1 .f32) (main_arg3 : IVec S8000000 32) : IVec S_ 1 :=
  let main_v0 : FVec F S100000x1 .f32 := Host.absf main_arg1
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_c_2 : IVec S_ 32 := constantI S_ 32 0#32
  let main_v9 : IVec S8000000 32 := broadcastInDim S8000000 ![] bcast_S_S8000000 main_c_2
  let main_v10 : IVec S8000000 1 := cmpi .sge main_arg3 main_v9
  let main_c_3 : IVec S_ 1 := constantI S_ 1 1#1
  let main_v11 : IVec S_ 1 := (fun x v => Host.reduce IntOp.andi x v reducesTo_S8000000_S_d0 h_S_) main_v10 main_c_3
  let main_v12 : IVec S_ 1 := andi main_v8 main_v11
  let main_c_4 : IVec S_ 32 := constantI S_ 32 256#32
  let main_v13 : IVec S8000000 32 := broadcastInDim S8000000 ![] bcast_S_S8000000 main_c_4
  let main_v14 : IVec S8000000 1 := cmpi .slt main_arg3 main_v13
  let main_c_5 : IVec S_ 1 := constantI S_ 1 1#1
  let main_v15 : IVec S_ 1 := (fun x v => Host.reduce IntOp.andi x v reducesTo_S8000000_S_d0 h_S_) main_v14 main_c_5
  fn_part1 (F := F) main_v12 main_v15
-- ==== Kernel.lean ====
abbrev S2x8000000 : Shape := ⟨2, ![2, 8000000]⟩
abbrev S100000x1 : Shape := ⟨2, ![100000, 1]⟩
abbrev S256x1 : Shape := ⟨2, ![256, 1]⟩
abbrev S8000000 : Shape := ⟨1, ![8000000]⟩
abbrev S1x8000000 : Shape := ⟨2, ![1, 8000000]⟩
abbrev S_ : Shape := ⟨0, ![]⟩
abbrev S8000000x1 : Shape := ⟨2, ![8000000, 1]⟩
abbrev S8000000x2 : Shape := ⟨2, ![8000000, 2]⟩
abbrev S8028160 : Shape := ⟨1, ![8028160]⟩
abbrev S32768 : Shape := ⟨1, ![32768]⟩
abbrev S2048x256 : Shape := ⟨2, ![2048, 256]⟩
abbrev S2048 : Shape := ⟨1, ![2048]⟩
abbrev S2048x1 : Shape := ⟨2, ![2048, 1]⟩
abbrev S100000 : Shape := ⟨1, ![100000]⟩

abbrev nBuf : Space → Nat
  | .hbm => 56
  | .vmem => 7
  | .smem => 0
  | _ => 0

abbrev bufTy : (tb : Table) → Fin (tcTables nBuf tb) → BufTy
  | .hbm, ⟨0, _⟩ => ⟨S2x8000000, .i32⟩
  | .hbm, ⟨1, _⟩ => ⟨S100000x1, .f32⟩
  | .hbm, ⟨2, _⟩ => ⟨S256x1, .f32⟩
  | .hbm, ⟨3, _⟩ => ⟨S8000000, .i32⟩
  | .hbm, ⟨4, _⟩ => ⟨S1x8000000, .i32⟩
  | .hbm, ⟨5, _⟩ => ⟨S8000000, .i32⟩
  | .hbm, ⟨6, _⟩ => ⟨S1x8000000, .i32⟩
  | .hbm, ⟨7, _⟩ => ⟨S8000000, .i32⟩
  | .hbm, ⟨8, _⟩ => ⟨S_, .i32⟩
  | .hbm, ⟨9, _⟩ => ⟨S8000000, .i32⟩
  | .hbm, ⟨10, _⟩ => ⟨S8000000, .i1⟩
  | .hbm, ⟨11, _⟩ => ⟨S_, .i32⟩
  | .hbm, ⟨12, _⟩ => ⟨S8000000, .i32⟩
  | .hbm, ⟨13, _⟩ => ⟨S8000000, .i32⟩
  | .hbm, ⟨14, _⟩ => ⟨S8000000, .i32⟩
  | .hbm, ⟨15, _⟩ => ⟨S_, .i32⟩
  | .hbm, ⟨16, _⟩ => ⟨S8000000, .i32⟩
  | .hbm, ⟨17, _⟩ => ⟨S8000000, .i32⟩
  | .hbm, ⟨18, _⟩ => ⟨S8000000x1, .i32⟩
  | .hbm, ⟨19, _⟩ => ⟨S8000000x1, .i32⟩
  | .hbm, ⟨20, _⟩ => ⟨S8000000x2, .i32⟩
  | .hbm, ⟨21, _⟩ => ⟨S8000000, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S8000000, .i32⟩
  | .hbm, ⟨29, _⟩ => ⟨S8000000, .i32⟩
  | .hbm, ⟨30, _⟩ => ⟨S_, .i32⟩
  | .hbm, ⟨31, _⟩ => ⟨S8000000, .i32⟩
  | .hbm, ⟨32, _⟩ => ⟨S8000000, .i1⟩
  | .hbm, ⟨33, _⟩ => ⟨S_, .i32⟩
  | .hbm, ⟨34, _⟩ => ⟨S8000000, .i32⟩
  | .hbm, ⟨35, _⟩ => ⟨S8000000, .i1⟩
  | .hbm, ⟨36, _⟩ => ⟨S_, .i32⟩
  | .hbm, ⟨37, _⟩ => ⟨S_, .i1⟩
  | .hbm, ⟨38, _⟩ => ⟨S8000000, .i1⟩
  | .hbm, ⟨39, _⟩ => ⟨S8000000, .i1⟩
  | .hbm, ⟨40, _⟩ => ⟨S8000000, .i1⟩
  | .hbm, ⟨41, _⟩ => ⟨S8000000, .i32⟩
  | .hbm, ⟨42, _⟩ => ⟨S8000000, .i32⟩
  | .hbm, ⟨43, _⟩ => ⟨S8000000, .i32⟩
  | .hbm, ⟨44, _⟩ => ⟨S_, .i32⟩
  | .hbm, ⟨45, _⟩ => ⟨S_, .i32⟩
  | .hbm, ⟨46, _⟩ => ⟨S8028160, .i32⟩
  | .hbm, ⟨47, _⟩ => ⟨S_, .i32⟩
  | .hbm, ⟨48, _⟩ => ⟨S_, .f32⟩
  | .hbm, ⟨49, _⟩ => ⟨S8028160, .f32⟩
  | .hbm, ⟨50, _⟩ => ⟨S8028160, .f32⟩
  | .hbm, ⟨51, _⟩ => ⟨S8000000, .f32⟩
  | .hbm, ⟨52, _⟩ => ⟨S_, .f32⟩
  | .hbm, ⟨53, _⟩ => ⟨S100000, .f32⟩
  | .hbm, ⟨54, _⟩ => ⟨S8000000x1, .i32⟩
  | .hbm, ⟨55, _⟩ => ⟨S100000, .f32⟩
  | .local _ .vmem, ⟨0, _⟩ => ⟨S32768, .i32⟩
  | .local _ .vmem, ⟨1, _⟩ => ⟨S32768, .i32⟩
  | .local _ .vmem, ⟨2, _⟩ => ⟨S32768, .f32⟩
  | .local _ .vmem, ⟨3, _⟩ => ⟨S32768, .f32⟩
  | .local _ .vmem, ⟨4, _⟩ => ⟨S256x1, .f32⟩
  | .local _ .vmem, ⟨5, _⟩ => ⟨S32768, .f32⟩
  | .local _ .vmem, ⟨6, _⟩ => ⟨S32768, .f32⟩
  | _, _ => ⟨S2x8000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v15 : Ref sig .tc := ⟨.hbm, 43, rfl⟩
abbrev main_c_3 : Ref sig .tc := ⟨.hbm, 44, rfl⟩
abbrev main_call1_v0 : Ref sig .tc := ⟨.hbm, 45, rfl⟩
abbrev main_v16 : Ref sig .tc := ⟨.hbm, 46, rfl⟩
abbrev main_c_4 : Ref sig .tc := ⟨.hbm, 47, rfl⟩
abbrev main_call2_v0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![245], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  concatenates_S8000000x1_S8000000x1_S8000000x2_d1 : Shape.Concatenates [S8000000x1, S8000000x1] S8000000x2 1
  pads_S8000000_S8028160_0281600 : S8000000.Pads (![0] : Fin 1 → Nat) ![28160] ![0] S8028160
  h_S_ : 0 < S_.numel
  iota_S2048x256_d1_w32 : S2048x256.Iotas .tc 32 [1]
  inb_S256x1_S256x1_0_0 : ∀ a, (![0, 0] : Fin 2 → Nat) a + S256x1.size a ≤ S256x1.size a
  h_S256x1 : 0 < S256x1.numel
  bitsLt_bf16_f32 : FTy.bits .bf16 < FTy.bits .f32
  inb_S32768_S2048_0 : ∀ a, (![0] : Fin 1 → Nat) a + S2048.size a ≤ S32768.size a
  h_S2048 : 0 < S2048.numel
  shapeCasts_S2048_S2048 : S2048.ShapeCasts S2048
  shapeCasts_S2048_S2048x1 : S2048.ShapeCasts S2048x1
  broadcasts_S2048x1_S2048x256 : S2048x1.Broadcasts S2048x256
  natLt_1_32 : 1 < 32
  shapeCasts_S2048x1_S2048 : S2048x1.ShapeCasts S2048
  inb_S32768_S2048_2048 : ∀ a, (![2048] : Fin 1 → Nat) a + S2048.size a ≤ S32768.size a
  inb_S32768_S2048_4096 : ∀ a, (![4096] : Fin 1 → Nat) a + S2048.size a ≤ S32768.size a
  inb_S32768_S2048_6144 : ∀ a, (![6144] : Fin 1 → Nat) a + S2048.size a ≤ S32768.size a
  inb_S32768_S2048_8192 : ∀ a, (![8192] : Fin 1 → Nat) a + S2048.size a ≤ S32768.size a
  inb_S32768_S2048_10240 : ∀ a, (![10240] : Fin 1 → Nat) a + S2048.size a ≤ S32768.size a
  inb_S32768_S2048_12288 : ∀ a, (![12288] : Fin 1 → Nat) a + S2048.size a ≤ S32768.size a
  inb_S32768_S2048_14336 : ∀ a, (![14336] : Fin 1 → Nat) a + S2048.size a ≤ S32768.size a
  inb_S32768_S2048_16384 : ∀ a, (![16384] : Fin 1 → Nat) a + S2048.size a ≤ S32768.size a
  inb_S32768_S2048_18432 : ∀ a, (![18432] : Fin 1 → Nat) a + S2048.size a ≤ S32768.size a
  inb_S32768_S2048_20480 : ∀ a, (![20480] : Fin 1 → Nat) a + S2048.size a ≤ S32768.size a
  inb_S32768_S2048_22528 : ∀ a, (![22528] : Fin 1 → Nat) a + S2048.size a ≤ S32768.size a
  inb_S32768_S2048_24576 : ∀ a, (![24576] : Fin 1 → Nat) a + S2048.size a ≤ S32768.size a
  inb_S32768_S2048_26624 : ∀ a, (![26624] : Fin 1 → Nat) a + S2048.size a ≤ S32768.size a
  inb_S32768_S2048_28672 : ∀ a, (![28672] : Fin 1 → Nat) a + S2048.size a ≤ S32768.size a
  inb_S32768_S2048_30720 : ∀ a, (![30720] : Fin 1 → Nat) a + S2048.size a ≤ S32768.size a
  slices_S8028160_S8000000_0 : S8028160.Slices ![0] S8000000
  bcast_S_S100000 : S_.BroadcastsInDim S100000 (![] : Fin 0 → Fin S100000.rank)
  gather_S100000x1_S8000000x2_S8000000_n_01_n_n_01_1_11_wf : GatherDims.WF S100000x1 S8000000x2 S8000000 [] [0, 1] [] [0, 1] [] 1 ![1, 1]
  dot_S2048x256_S256x1_S2048x1_1_0_0_1_n_n_wf : DotDims.WF S2048x256 S256x1 S2048x1 [1] [0] [0] [1] [] []
  scatter_S100000_S8000000x1_S8000000_n_0_0_1_wf : ScatterDims.WF S100000 S8000000x1 S8000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768.size a ≤ S8028160.size a
  hwx0_0 : ∀ i : grid0.Coords, EltTy.bits .i32 = 32 ∨ (Rect.block (s := S8028160) S32768.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768.size a ≤ S8028160.size a
  hwx0_1 : ∀ i : grid0.Coords, EltTy.bits .f32 = 32 ∨ (Rect.block (s := S8028160) S32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32768.size a ≤ S8028160.size a
  hwx0_3 : ∀ i : grid0.Coords, EltTy.bits .f32 = 32 ∨ (Rect.block (s := S8028160) S32768.size (cc0_transform_3 i) (hinb0_3 i)).WholeWords (EltTy.packing .f32)

variable [Facts₀]

def gather_S100000x1_S8000000x2_S8000000_n_01_n_n_01_1_11 : GatherDims S100000x1 S8000000x2 S8000000 where
  offsetDims := []
  collapsedSliceDims := [0, 1]
  operandBatchingDims := []
  startIndicesBatchingDims := []
  startIndexMap := [0, 1]
  indexVectorDim := 1
  sliceSizes := ![1, 1]
  wf := gather_S100000x1_S8000000x2_S8000000_n_01_n_n_01_1_11_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def scatter_S100000_S8000000x1_S8000000_n_0_0_1 : ScatterDims S100000 S8000000x1 S8000000 where
  updateWindowDims := []
  insertedWindowDims := [0]
  scatterDimsToOperandDims := [0]
  indexVectorDim := 1
  wf := scatter_S100000_S8000000x1_S8000000_n_0_0_1_wf

abbrev win0_0 : Pipeline.Window sig grid0 :=
  Pipeline.Window.ofSpec (Memref.whole main_v16) S32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8000000 : Shape := ⟨2, ![2, 8000000]⟩
abbrev S100000x1 : Shape := ⟨2, ![100000, 1]⟩
abbrev S256x1 : Shape := ⟨2, ![256, 1]⟩
abbrev S8000000 : Shape := ⟨1, ![8000000]⟩
abbrev S256 : Shape := ⟨1, ![256]⟩
abbrev S_ : Shape := ⟨0, ![]⟩
abbrev S8000000x1 : Shape := ⟨2, ![8000000, 1]⟩
abbrev S1x8000000 : Shape := ⟨2, ![1, 8000000]⟩
abbrev S8000000x2 : Shape := ⟨2, ![8000000, 2]⟩
abbrev S100000 : Shape := ⟨1, ![100000]⟩

abbrev nBuf : Space → Nat
  | .hbm => 59
  | .vmem => 0
  | .smem => 0
  | _ => 0

abbrev bufTy : (tb : Table) → Fin (tcTables nBuf tb) → BufTy
  | .hbm, ⟨0, _⟩ => ⟨S2x8000000, .i32⟩
  | .hbm, ⟨1, _⟩ => ⟨S100000x1, .f32⟩
  | .hbm, ⟨2, _⟩ => ⟨S256x1, .f32⟩
  | .hbm, ⟨3, _⟩ => ⟨S8000000, .i32⟩
  | .hbm, ⟨4, _⟩ => ⟨S256, .f32⟩
  | .hbm, ⟨5, _⟩ => ⟨S_, .i32⟩
  | .hbm, ⟨6, _⟩ => ⟨S8000000, .i32⟩
  | .hbm, ⟨7, _⟩ => ⟨S8000000, .i1⟩
  | .hbm, ⟨8, _⟩ => ⟨S_, .i32⟩
  | .hbm, ⟨9, _⟩ => ⟨S8000000, .i32⟩
  | .hbm, ⟨10, _⟩ => ⟨S8000000, .i32⟩
  | .hbm, ⟨11, _⟩ => ⟨S8000000, .i32⟩
  | .hbm, ⟨12, _⟩ => ⟨S8000000x1, .i32⟩
  | .hbm, ⟨13, _⟩ => ⟨S8000000, .f32⟩
  | .hbm, ⟨14, _⟩ => ⟨S1x8000000, .i32⟩
  | .hbm, ⟨15, _⟩ => ⟨S8000000, .i32⟩
  | .hbm, ⟨16, _⟩ => ⟨S_, .i32⟩
  | .hbm, ⟨17, _⟩ => ⟨S8000000, .i32⟩
  | .hbm, ⟨18, _⟩ => ⟨S8000000, .i1⟩
  | .hbm, ⟨19, _⟩ => ⟨S_, .i32⟩
  | .hbm, ⟨20, _⟩ => ⟨S8000000, .i32⟩
  | .hbm, ⟨21, _⟩ => ⟨S8000000, .i32⟩
  | .hbm, ⟨22, _⟩ => ⟨S8000000, .i32⟩
  | .hbm, ⟨23, _⟩ => ⟨S_, .i32⟩
  | .hbm, ⟨24, _⟩ => ⟨S8000000, .i32⟩
  | .hbm, ⟨25, _⟩ => ⟨S8000000, .i32⟩
  | .hbm, ⟨26, _⟩ => ⟨S8000000x1, .i32⟩
  | .hbm, ⟨27, _⟩ => ⟨S8000000x1, .i32⟩
  | .hbm, ⟨28, _⟩ => ⟨S8000000x2, .i32⟩
  | .hbm, ⟨29, _⟩ => ⟨S8000000, .f32⟩
  | .hbm, ⟨30, _⟩ => ⟨S8000000, .f32⟩
  | .hbm, ⟨31, _⟩ => ⟨S1x8000000, .i32⟩
  | .hbm, ⟨32, _⟩ => ⟨S8000000, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S8000000, .i32⟩
  | .hbm, ⟨40, _⟩ => ⟨S8000000, .i32⟩
  | .hbm, ⟨41, _⟩ => ⟨S_, .i32⟩
  | .hbm, ⟨42, _⟩ => ⟨S8000000, .i32⟩
  | .hbm, ⟨43, _⟩ => ⟨S8000000, .i1⟩
  | .hbm, ⟨44, _⟩ => ⟨S_, .i32⟩
  | .hbm, ⟨45, _⟩ => ⟨S8000000, .i32⟩
  | .hbm, ⟨46, _⟩ => ⟨S8000000, .i1⟩
  | .hbm, ⟨47, _⟩ => ⟨S_, .i32⟩
  | .hbm, ⟨48, _⟩ => ⟨S_, .i1⟩
  | .hbm, ⟨49, _⟩ => ⟨S8000000, .i1⟩
  | .hbm, ⟨50, _⟩ => ⟨S8000000, .i1⟩
  | .hbm, ⟨51, _⟩ => ⟨S8000000, .i1⟩
  | .hbm, ⟨52, _⟩ => ⟨S8000000, .i32⟩
  | .hbm, ⟨53, _⟩ => ⟨S8000000, .i32⟩
  | .hbm, ⟨54, _⟩ => ⟨S8000000, .i32⟩
  | .hbm, ⟨55, _⟩ => ⟨S_, .f32⟩
  | .hbm, ⟨56, _⟩ => ⟨S100000, .f32⟩
  | .hbm, ⟨57, _⟩ => ⟨S8000000x1, .i32⟩
  | .hbm, ⟨58, _⟩ => ⟨S100000, .f32⟩
  | _, _ => ⟨S2x8000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_1 : Ref sig .tc := ⟨.hbm, 41, rfl⟩
abbrev main_call0_v5 : Ref sig .tc := ⟨.hbm, 42, rfl⟩
abbrev main_call0_v6 : Ref sig .tc := ⟨.hbm, 43, rfl⟩
abbrev main_call0_c_2 : Ref sig .tc := ⟨.hbm, 44, rfl⟩
abbrev main_call0_v7 : Ref sig .tc := ⟨.hbm, 45, rfl⟩
abbrev main_call0_v8 : Ref sig .tc := ⟨.hbm, 46, rfl⟩
abbrev main_call0_c_3 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v24 : Ref sig .tc := ⟨.hbm, 54, rfl⟩
abbrev main_cst : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩

abbrev nD : Nat := 1
abbrev τ : Topo := Topo.v7x

variable {F : FTy → Type} [FloatOps F]

class Facts₀ : Prop where
  shapeCasts_S256x1_S256 : S256x1.ShapeCasts S256
  bcast_S_S8000000 : S_.BroadcastsInDim S8000000 (![] : Fin 0 → Fin S8000000.rank)
  bcast_S8000000_S8000000x1_0 : S8000000.BroadcastsInDim S8000000x1 (![0] : Fin 1 → Fin S8000000x1.rank)
  slices_S2x8000000_S1x8000000_0_0 : S2x8000000.Slices ![0, 0] S1x8000000
  shapeCasts_S1x8000000_S8000000 : S1x8000000.ShapeCasts S8000000
  concatenates_S8000000x1_S8000000x1_S8000000x2_d1 : Shape.Concatenates [S8000000x1, S8000000x1] S8000000x2 1
  slices_S2x8000000_S1x8000000_1_0 : S2x8000000.Slices ![1, 0] S1x8000000
  bcast_S_S100000 : S_.BroadcastsInDim S100000 (![] : Fin 0 → Fin S100000.rank)
  gather_S256_S8000000x1_S8000000_n_0_n_n_0_1_1_wf : GatherDims.WF S256 S8000000x1 S8000000 [] [0] [] [0] [] 1 ![1]
  gather_S100000x1_S8000000x2_S8000000_n_01_n_n_01_1_11_wf : GatherDims.WF S100000x1 S8000000x2 S8000000 [] [0, 1] [] [0, 1] [] 1 ![1, 1]
  scatter_S100000_S8000000x1_S8000000_n_0_0_1_wf : ScatterDims.WF S100000 S8000000x1 S8000000 [] [0] [0] 1

variable [Facts₀]

def gather_S256_S8000000x1_S8000000_n_0_n_n_0_1_1 : GatherDims S256 S8000000x1 S8000000 where
  offsetDims := []
  collapsedSliceDims := [0]
  operandBatchingDims := []
  startIndicesBatchingDims := []
  startIndexMap := [0]
  indexVectorDim := 1
  sliceSizes := ![1]
  wf := gather_S256_S8000000x1_S8000000_n_0_n_n_0_1_1_wf
def gather_S100000x1_S8000000x2_S8000000_n_01_n_n_01_1_11 : GatherDims S100000x1 S8000000x2 S8000000 where
  offsetDims := []
  collapsedSliceDims := [0, 1]
  operandBatchingDims := []
  startIndicesBatchingDims := []
  startIndexMap := [0, 1]
  indexVectorDim := 1
  sliceSizes := ![1, 1]
  wf := gather_S100000x1_S8000000x2_S8000000_n_01_n_n_01_1_11_wf
def scatter_S100000_S8000000x1_S8000000_n_0_0_1 : ScatterDims S100000 S8000000x1 S8000000 where
  updateWindowDims := []
  insertedWindowDims := [0]
  scatterDimsToOperandDims := [0]
  indexVectorDim := 1
  wf := scatter_S100000_S8000000x1_S8000000_n_0_0_1_wf

class Facts : Prop extends Facts₀ where

variable [Facts]
-- ==== Proof.Spec.lean ====
/-
  The mathematics both programs compute, as functions of the four argument arrays.

  Inputs: an index pair `indices : i32[2, n]` (row 0 the entity of each edge, row 1 its column), entity scores
  `e : f32[E, 1]`, relation scores `p : f32[R, 1]`, and a relation id per edge `rel : i32[n]`
  (n = 8 000 000, E = 100 000, R = 256).  The result is, per entity bin b,
      y[b] = Σ_{k : seg k = b} p[rel k] · e[row k]
  where `seg k = col k mod E`.  Both programs take the same host steps for `e[row k]` (`rowGather`), for
  `seg` (`seg`) and for the final sum into bins (`binSum`); they differ only in how `p[rel k]` is found:
  the reference indexes the flattened table (`takeRel`), the kernel multiplies a one-hot row by the table
  (`onehotDot`), over edges padded with zeros to a multiple of the block size (`padRel`, `padScore`).
-/
import Idealize.ShloMosaic.PureOps
import Idealize.ShloMosaic.PureOps.Ideal
import Idealize.ShloMosaic.Lib.ValueIdx

noncomputable section

namespace Cert.EdgeScore

open Idealize.ShloMosaic

abbrev S2x8000000 : Shape := ⟨2, ![2, 8000000]⟩
abbrev S1x8000000 : Shape := ⟨2, ![1, 8000000]⟩
abbrev S100000x1 : Shape := ⟨2, ![100000, 1]⟩
abbrev S256x1 : Shape := ⟨2, ![256, 1]⟩
abbrev S256 : Shape := ⟨1, ![256]⟩
abbrev S8000000 : Shape := ⟨1, ![8000000]⟩
abbrev S8000000x1 : Shape := ⟨2, ![8000000, 1]⟩
abbrev S8000000x2 : Shape := ⟨2, ![8000000, 2]⟩
abbrev S8028160 : Shape := ⟨1, ![8028160]⟩
abbrev S100000 : Shape := ⟨1, ![100000]⟩
abbrev S_ : Shape := ⟨0, ![]⟩

variable {F : FTy → Type} [FloatOps F]

/-! ## Integer steps shared by both programs -/

/-- Row 0 of the index pair: the entity of each edge. -/
def rowIds (a0 : IVec S2x8000000 32) : IVec S8000000 32 :=
  shapeCast S8000000 (extractStridedSlice S1x8000000 ![0, 0] a0 (by decide)) (by decide)

/-- Row 1 of the index pair: the column of each edge. -/
def colIds (a0 : IVec S2x8000000 32) : IVec S8000000 32 :=
  shapeCast S8000000 (extractStridedSlice S1x8000000 ![1, 0] a0 (by decide)) (by decide)

/-- A position counted from the end when negative: `x < 0 ? x + n : x`. -/
def wrapNeg (n : BitVec 32) (x : IVec S8000000 32) : IVec S8000000 32 :=
  select (cmpi .slt x (broadcastInDim S8000000 ![] (by decide) (constantI S_ 32 0#32)))
    (addi x (broadcastInDim S8000000 ![] (by decide) (constantI S_ 32 n))) x

/-- The dimension numbers of `table[i, j]` at one (i, j) pair per edge. -/
def pairDims : GatherDims S100000x1 S8000000x2 S8000000 where
  offsetDims := []
  collapsedSliceDims := [0, 1]
  operandBatchingDims := []
  startIndicesBatchingDims := []
  startIndexMap := [0, 1]
  indexVectorDim := 1
  sliceSizes := ![1, 1]
  wf := by decide

theorem pairCols : Shape.Concatenates [S8000000x1, S8000000x1] S8000000x2 1 := by decide

/-- `e[row k, 0]` for every edge k: the start pairs are (wrapped row, 0). -/
def rowGather (a0 : IVec S2x8000000 32) (a1 : FVec F S100000x1 .f32) : FVec F S8000000 .f32 :=
  Host.gather pairDims a1
    (concatenate S8000000x2 1
      [⟨S8000000x1, broadcastInDim S8000000x1 ![0] (by decide) (wrapNeg 100000#32 (rowIds a0))⟩,
       ⟨S8000000x1, broadcastInDim S8000000x1 ![0] (by decide)
          (id (broadcastInDim S8000000 ![] (by decide) (constantI S_ 32 0#32) : IVec S8000000 32))⟩]
      pairCols)

/-- The divisor of the floor-mod, guarded against zero: `d = 0 ? 1 : d`. -/
def modDivisor (d : IVec S_ 32) : IVec S_ 32 :=
  select (cmpi .eq (id d) (constantI S_ 32 0#32)) (constantI S_ 32 1#32) (id d)

/-- Floor-mod `x mod d` of every entry (the truncated remainder moved by `d` where its sign differs
    from the divisor's and it is not zero). -/
def floorMod (x : IVec S8000000 32) (d : IVec S_ 32) : IVec S8000000 32 :=
  let q : IVec S8000000 32 := Host.remsi x (broadcastInDim S8000000 ![] (by decide) (modDivisor d))
  select
    (andi
      (cmpi .ne (cmpi .slt q (broadcastInDim S8000000 ![] (by decide) (constantI S_ 32 0#32)))
        (broadcastInDim S8000000 ![] (by decide) (cmpi .slt (modDivisor d) (constantI S_ 32 0#32))))
      (cmpi .ne q (broadcastInDim S8000000 ![] (by decide) (constantI S_ 32 0#32))))
    (addi q (broadcastInDim S8000000 ![] (by decide) (modDivisor d))) q

/-- The bin of each edge: its column mod the number of entities. -/
def seg (a0 : IVec S2x8000000 32) : IVec S8000000 32 :=
  floorMod (colIds a0) (constantI S_ 32 100000#32)

/-- The dimension numbers of `y.at[i].add(u)` at one position per edge. -/
def binDims : ScatterDims S100000 S8000000x1 S8000000 where
  updateWindowDims := []
  insertedWindowDims := [0]
  scatterDimsToOperandDims := [0]
  indexVectorDim := 1
  wf := by decide

/-- The sum into bins: bin b receives the contributions of the edges whose bin is b. -/
def binSum (s : IVec S8000000 32) (u : FVec F S8000000 .f32) : FVec F S100000 .f32 :=
  Host.scatterAdd binDims (broadcastInDim S100000 ![] (by decide) (constant S_ .f32 0x00000000#32))
    (broadcastInDim S8000000x1 ![0] (by decide) s) u

/-! ## The reference's look-up of the relation score -/

/-- The dimension numbers of `table[i]` at one position per edge. -/
def takeDims : GatherDims S256 S8000000x1 S8000000 where
  offsetDims := []
  collapsedSliceDims := [0]
  operandBatchingDims := []
  startIndicesBatchingDims := []
  startIndexMap := [0]
  indexVectorDim := 1
  sliceSizes := ![1]
  wf := by decide

/-- The relation id of each edge, counted from the end when negative. -/
def wrapRel (a3 : IVec S8000000 32) : IVec S8000000 32 := wrapNeg 256#32 a3

/-- `p.reshape(-1)[rel k]` for every edge k. -/
def takeRel (a2 : FVec F S256x1 .f32) (a3 : IVec S8000000 32) : FVec F S8000000 .f32 :=
  Host.gather takeDims (shapeCast S256 a2 (by decide))
    (broadcastInDim S8000000x1 ![0] (by decide) (wrapRel a3))

/-- The reference's result. -/
def refOut (a0 : IVec S2x8000000 32) (a1 : FVec F S100000x1 .f32) (a2 : FVec F S256x1 .f32) (a3 : IVec S8000000 32) :
    FVec F S100000 .f32 :=
  binSum (seg a0) (mulf (takeRel a2 a3) (rowGather a0 a1))

/-! ## The kernel's padded operands and its result from the kernel call's array -/

/-- The relation ids padded with zeros to 245 blocks of 32768. -/
def padRel (a3 : IVec S8000000 32) : IVec S8028160 32 :=
  pad S8028160 ![0] ![28160] ![0] a3 (id (constantI S_ 32 0#32)) (by decide) (by decide)

/-- The gathered entity scores padded with zeros likewise. -/
def padScore (x : FVec F S8000000 .f32) : FVec F S8028160 .f32 :=
  pad S8028160 ![0] ![28160] ![0] x (sitofp .f32 (constantI S_ 32 0#32)) (by decide) (by decide)

/-- The kernel program's result from the array `kb` its kernel call leaves: the first n entries summed into bins. -/
def kernOut (a0 : IVec S2x8000000 32) (kb : FVec F S8028160 .f32) : FVec F S100000 .f32 :=
  binSum (seg a0) (extractStridedSlice S8000000 ![0] kb (by decide))

end Cert.EdgeScore

end
-- ==== Proof.KernelHost.lean ====
/-
  The host side of the kernel program: what the arrays hold when its one kernel region is entered, and what the
  five host operations after the region make of the region's output array.

  Before the region the program takes row 0 of the index pair, wraps negative entries, gathers the entity scores
  at them, takes row 1 of the index pair modulo the number of entities (the bin of each edge), and pads the relation
  ids and the gathered scores with zeros to 245 blocks of 32768 entries.  After the region it keeps the first
  8 000 000 entries of the region's output and sums them into the bins.  Each of these arrays is a fold of the
  host operations over the launch contents; here each fold is read once, as the corresponding function of the
  shared specification applied to the argument arrays, so that later modules never open the fold.

  Every statement holds at any float model `F`.
-/
import proofs.«405953_j13700945674315_1_alg».proof.Proof.Gen.KernelIdeal.Frame
import proofs.«405953_j13700945674315_1_alg».proof.Proof.Spec
import Idealize.ShloMosaic.Lib.StableHlo.Run
import Idealize.ShloMosaic.Lib.Pipeline.Value

noncomputable section

namespace Cert.KernelIdeal.Host

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! ## The arrays at the region's entry -/

set_option maxHeartbeats 1000000 in
/-- The first input window's array at the region's entry: the relation ids padded with zeros. -/
theorem relPad (c : Dev nD) :
    (Gen.V m c main_v16 : S8028160.Idx → BitVec 32)
      = Cert.EdgeScore.padRel (m ((c.tc : Thread nD τ).loc main_arg3)) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

set_option maxHeartbeats 1000000 in
/-- The second input window's array at the region's entry: the entity score of each edge's row, padded with zeros. -/
theorem scorePad (c : Dev nD) :
    (Gen.V m c main_v17 : S8028160.Idx → F .f32)
      = Cert.EdgeScore.padScore
          (Cert.EdgeScore.rowGather (m ((c.tc : Thread nD τ).loc main_arg0)) (m ((c.tc : Thread nD τ).loc main_arg1))) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

/-- `relPad` with the array named as window 0's. -/
theorem relPad_arr (c : Dev nD) :
    (Gen.V m c (Pipeline.arrRef spec0 0) : S8028160.Idx → BitVec 32)
      = Cert.EdgeScore.padRel (m ((c.tc : Thread nD τ).loc main_arg3)) :=
  relPad m c

/-- `scorePad` with the array named as window 1's. -/
theorem scorePad_arr (c : Dev nD) :
    (Gen.V m c (Pipeline.arrRef spec0 1) : S8028160.Idx → F .f32)
      = Cert.EdgeScore.padScore
          (Cert.EdgeScore.rowGather (m ((c.tc : Thread nD τ).loc main_arg0)) (m ((c.tc : Thread nD τ).loc main_arg1))) :=
  scorePad m c

set_option maxHeartbeats 1000000 in
/-- The bin of each edge, computed before the region and read only after it: the edge's column modulo the number
    of entities. -/
theorem segV (c : Dev nD) :
    (Gen.V m c main_v15 : S8000000.Idx → BitVec 32)
      = Cert.EdgeScore.seg (m ((c.tc : Thread nD τ).loc main_arg0)) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

/-! ## The operations after the region -/

set_option maxHeartbeats 400000 in
/-- The result buffer after the five operations that follow the region: the first 8 000 000 entries of the
    region's output array (window 3's array after the last write-back) summed into the bins.  The output array is
    read where the region left it; the bins' ids are no window's array, so they are as at the region's entry. -/
theorem tailOut (c : Dev nD) :
    Pipeline.afterTail₀ cfgs (Gen.dats m) 0 (Gen.V0 m) [Gen.hostOps1] c main_v22
      = Cert.EdgeScore.kernOut (m ((c.tc : Thread nD τ).loc main_arg0)) ((Gen.dats m 0 c).arrAt 3 cfg0.N) := by
  unfold Pipeline.afterTail₀
  show StableHlo.after Gen.hostOps1 _ (Proc.devRef .tc main_v22) = _
  after_results
  rw [Pipeline.withArrays_arr spec0 launch0.win.arr_inj c _ _ 3,
    Pipeline.withArrays_of_ne _ c (Gen.V0 m c) _ main_v15 (by exact (by decide : ∀ w, Pipeline.arrRef spec0 w ≠ main_v15)),
    show Gen.V0 m c (Proc.devRef .tc main_v15) = Cert.EdgeScore.seg (m ((c.tc : Thread nD τ).loc main_arg0)) from segV m c]
  rfl

/-! ## The run -/

/-- From any memory with zero counters every weakly fair execution of the program terminates; at the end the result
    buffer holds the bin sums of the region's output array, and the four argument arrays are as launched. -/
theorem run : θ_run defs (onTc (τ := τ) (main (F := F))) ⟨m, fun _ => 0, ρ⟩ (fun r => ∀ c : Dev nD,
      r.2.mem ((c.tc : Thread nD τ).loc main_v22)
        = Cert.EdgeScore.kernOut (m ((c.tc : Thread nD τ).loc main_arg0)) ((Gen.dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v22 (Pipeline.mem_restRefs_of main_v22 (by decide) (by decide))).trans (tailOut m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).1 2).trans (((Gen.dats m 0 c).arrAt_in 2 rfl _).trans ((Gen.A_eq m c 2).trans (Gen.V_main_arg2 m c))),
      ((h c).2 main_arg3 (Pipeline.mem_restRefs_of main_arg3 (by decide) (by decide))).trans (Gen.W_main_arg3 m (Gen.dats m) c)⟩)
    (Gen.run_main m ρ)

end Cert.KernelIdeal.Host

end
-- ==== Proof.OneHot.lean ====
/-
  A one-hot row dotted with a column: the sum over the 256 relation ids j of [w = j] · P[j, 0], with the
  indicator spelt the way a widened comparison bit converted to a float reads on the extended reals.
  When the word w is one of the ids, exactly one term survives and the sum is P[w, 0]: every other term is 0 · P[j, 0],
  and 0 times any extended real (an infinity too) is 0.
-/
import Idealize.ShloMosaic.PureOps
import Idealize.ShloMosaic.PureOps.Ideal
import Idealize.ShloMosaic.Lib.ValueIdx
import Idealize.ShloMosaic.Lib.StableHlo.Predicate

noncomputable section

namespace Cert.EdgeScore

open Idealize.ShloMosaic Idealize.ShloMosaic.ValueIdx
open scoped BigOperators

/-- The indicator [w = v] as an extended real: the comparison's bit, widened to a word, read as a signed integer. -/
def hot (w v : BitVec 32) : EReal := ((((IntOp.cmpi .eq w v).setWidth 32).toInt : ℝ) : EReal)

theorem hot_self (w : BitVec 32) : hot w w = 1 := by
  unfold hot
  rw [(StableHlo.Predicate.cmpi_eq_iff).mpr rfl]
  norm_num

theorem hot_ne {w v : BitVec 32} (h : w ≠ v) : hot w v = 0 := by
  unfold hot
  have hb : IntOp.cmpi .eq w v = 0#1 := by
    rcases BitVec.eq_zero_or_eq_one (IntOp.cmpi .eq w v) with h0 | h1
    · exact h0
    · exact absurd ((StableHlo.Predicate.cmpi_eq_iff).mp h1) h
  rw [hb]
  norm_num

/-- The one-hot row of the word `w` dotted with the first column of `P`. -/
def hotDot (P : (⟨2, ![256, 1]⟩ : Shape).Idx → EReal) (w : BitVec 32) : EReal :=
  ∑ j : Fin 256, hot w (BitVec.ofNat 32 j.val) * P (ix2 j 0)

/-- At a word that is one of the 256 ids the dot product is that id's entry. -/
theorem hotDot_of_lt (P : (⟨2, ![256, 1]⟩ : Shape).Idx → EReal) (w : BitVec 32) (h : w.toNat < 256) :
    hotDot P w = P (ix2 ⟨w.toNat, h⟩ 0) := by
  unfold hotDot
  rw [Finset.sum_eq_single (⟨w.toNat, h⟩ : Fin 256)]
  · have e : BitVec.ofNat 32 w.toNat = w := by
      apply BitVec.eq_of_toNat_eq
      rw [BitVec.toNat_ofNat]
      exact Nat.mod_eq_of_lt w.isLt
    show hot w (BitVec.ofNat 32 w.toNat) * _ = _
    rw [e, hot_self, one_mul]
  · intro j _ hj
    have hne : w ≠ BitVec.ofNat 32 j.val := by
      intro e
      apply hj
      apply Fin.ext
      have : w.toNat = j.val := by
        rw [e, BitVec.toNat_ofNat]
        exact Nat.mod_eq_of_lt (by have := j.isLt; omega)
      exact this.symm
    rw [hot_ne hne, zero_mul]
  · intro hn; exact absurd (Finset.mem_univ _) hn

/-- Entry k of an edge array: the one-hot row of the relation id at k dotted with the score column, times the
    gathered entity score at k. -/
def edgeVal {n : Nat} (R : (⟨1, ![n]⟩ : Shape).Idx → BitVec 32) (E : (⟨1, ![n]⟩ : Shape).Idx → EReal)
    (P : (⟨2, ![256, 1]⟩ : Shape).Idx → EReal) : (⟨1, ![n]⟩ : Shape).Idx → EReal :=
  fun k => hotDot P (R k) * E k

end Cert.EdgeScore

end
-- ==== Proof.Body.lean ====
/-
  What the kernel body leaves in its output block, entry by entry.

  The body cuts its 32768-entry block into 16 chunks of 2048 lanes.  For a chunk it compares each lane's relation id
  with the ids 0…255 laid along a second axis, turns the comparison bits into floats (a one-hot row per lane),
  multiplies that [2048 × 256] matrix by the [256 × 1] score column, and multiplies the resulting lane vector by
  the chunk of gathered entity scores.  On the extended reals a change of float format is the identity and the
  matrix product into a zero accumulator is a plain sum, so lane l of a chunk holds
      (Σ_j [rel l = j] · p[j, 0]) · e l,
  and the 16 stores tile the block: the block as a whole is that one function of its three input blocks.
-/
import proofs.«405953_j13700945674315_1_alg».proof.Proof.Gen.KernelIdeal.Frame
import proofs.«405953_j13700945674315_1_alg».proof.Proof.OneHot
import Idealize.ShloMosaic.PureOps.Ideal.Laws
import Idealize.ShloMosaic.Lib.ValueIdx
import Idealize.ShloMosaic.Lib.Pipeline.Value

set_option maxRecDepth 16384

noncomputable section

namespace Cert.KernelIdeal.Body

open Idealize.ShloMosaic Idealize.ShloMosaic.ValueIdx Cert.KernelIdeal Cert.KernelIdeal.Gen Cert.EdgeScore
open scoped BigOperators

/-! ## The matrix product's operand indices -/

theorem lhs_0 (j : S2048x1.Idx) (k : dot_S2048x256_S256x1_S2048x1_1_0_0_1_n_n.contr.Idx) :
    (dot_S2048x256_S256x1_S2048x1_1_0_0_1_n_n.lhsIdx j k 0).val = (j 0).val := rfl
theorem lhs_1 (j : S2048x1.Idx) (k : dot_S2048x256_S256x1_S2048x1_1_0_0_1_n_n.contr.Idx) :
    (dot_S2048x256_S256x1_S2048x1_1_0_0_1_n_n.lhsIdx j k 1).val = (k ⟨0, by decide⟩).val := rfl
theorem rhs_0 (j : S2048x1.Idx) (k : dot_S2048x256_S256x1_S2048x1_1_0_0_1_n_n.contr.Idx) :
    (dot_S2048x256_S256x1_S2048x1_1_0_0_1_n_n.rhsIdx j k 0).val = (k ⟨0, by decide⟩).val := rfl
theorem rhs_1 (j : S2048x1.Idx) (k : dot_S2048x256_S256x1_S2048x1_1_0_0_1_n_n.contr.Idx) :
    (dot_S2048x256_S256x1_S2048x1_1_0_0_1_n_n.rhsIdx j k 1).val = (j 1).val := rfl

/-! ## One chunk at a lane -/

/-- Lane `l` of a chunk: the one-hot row of the lane's relation id dotted with the score column, times the lane's
    gathered entity score. -/
theorem chunk_apply (v2 : FVec Ideal S256x1 .bf16) (rel : Vec Ideal S2048 .i32) (e : Vec Ideal S2048 .f32) (l : Fin 2048) :
    k0_pay6 (F := Ideal) (iota .tc S2048x256 32 [1] iota_S2048x256_d1_w32) v2 rel e (ix1 l)
      = hotDot v2 (rel (ix1 l)) * e (ix1 l) := by
  unfold k0_pay6 hotDot
  rw [mulf_apply, shapeCast_self, shapeCast_self]
  congr 1
  rw [shapeCast_apply _ _ (ix1 l) (ix2 l 0) (by rw [Shape.rowMajor_val_two, Shape.rowMajor_val_one]; show l.val * 1 + 0 = l.val; omega)]
  simp only [matmul]
  rw [Ideal.matmul_constant_zero_apply,
    ← Equiv.sum_comp (contrEquiv1 dot_S2048x256_S256x1_S2048x1_1_0_0_1_n_n 256 rfl rfl).symm]
  refine Finset.sum_congr rfl fun j _ => ?_
  have hl : dot_S2048x256_S256x1_S2048x1_1_0_0_1_n_n.lhsIdx (ix2 l 0)
      ((contrEquiv1 dot_S2048x256_S256x1_S2048x1_1_0_0_1_n_n 256 rfl rfl).symm j) = ix2 l j := by
    funext a
    match a with
    | ⟨0, _⟩ => exact Fin.ext (lhs_0 _ _)
    | ⟨1, _⟩ => exact Fin.ext ((lhs_1 _ _).trans (contrEquiv1_symm_val _ 256 rfl rfl j))
  have hr : dot_S2048x256_S256x1_S2048x1_1_0_0_1_n_n.rhsIdx (ix2 l 0)
      ((contrEquiv1 dot_S2048x256_S256x1_S2048x1_1_0_0_1_n_n 256 rfl rfl).symm j) = ix2 j 0 := by
    funext a
    match a with
    | ⟨0, _⟩ => exact Fin.ext ((rhs_0 _ _).trans (contrEquiv1_symm_val _ 256 rfl rfl j))
    | ⟨1, _⟩ => exact Fin.ext (rhs_1 _ _)
  rw [hl, hr]
  congr 1
  rw [truncf_apply, sitofp_apply, extui_apply]
  show ((((IntOp.cmpi .eq
      (broadcastTo S2048x256 (shapeCast S2048x1 rel shapeCasts_S2048_S2048x1) broadcasts_S2048x1_S2048x256 (ix2 l j))
      (iota .tc S2048x256 32 [1] iota_S2048x256_d1_w32 (ix2 l j))).setWidth 32).toInt : ℝ) : EReal) = _
  rw [broadcastTo_apply _ _ (ix2 l j) (ix2 l 0) (fun a => by match a with | ⟨0, _⟩ => rfl | ⟨1, _⟩ => rfl),
    shapeCast_apply _ _ (ix2 l 0) (ix1 l) (by rw [Shape.rowMajor_val_two, Shape.rowMajor_val_one]; show l.val = l.val * 1 + 0; omega),
    iota_single_apply]
  rfl

/-! ## The block -/

/-- The output block as one function of the three input blocks: entry y is the one-hot row of the relation id at y
    dotted with the score column, times the gathered entity score at y. -/
def blockVal (x0 : Vec Ideal S32768 .i32) (x1 : Vec Ideal S32768 .f32) (x2 : Vec Ideal S256x1 .f32) : S32768.Idx → EReal :=
  fun y => hotDot x2 (x0 y) * x1 y

theorem zeros2 : (![0, 0] : Fin 2 → Nat) = fun _ => 0 := funext fun a => by fin_cases a <;> rfl

/-- A chunk's stored value, at a lane, is the block function at the lane's place in the block. -/
theorem piece_eq (x0 : Vec Ideal S32768 .i32) (x1 : Vec Ideal S32768 .f32) (x2 : Vec Ideal S256x1 .f32)
    (off : Fin 1 → Nat) (inb : ∀ a, off a + S2048.size a ≤ S32768.size a) (x : S2048.Idx) :
    k0_pay6 (F := Ideal) (iota .tc S2048x256 32 [1] iota_S2048x256_d1_w32) (k0_pay2 (View.ld x2 r0_0))
        (View.ld x0 (Rect.unit (s := S32768) off S2048.size inb)) (View.ld x1 (Rect.unit (s := S32768) off S2048.size inb)) x
      = blockVal x0 x1 x2 ((Rect.unit (s := S32768) off S2048.size inb).emb x) := by
  obtain ⟨l, rfl⟩ : ∃ l : Fin 2048, x = ix1 l := ⟨x 0, eq_ix1 x⟩
  rw [chunk_apply]
  unfold blockVal k0_pay2
  have hp : (truncf .bf16 (View.ld x2 r0_0) bitsLt_bf16_f32 : FVec Ideal S256x1 .bf16) = x2 := by
    funext i
    rw [truncf_apply, View.ld_unit_zero (S := S256x1) zeros2]
  rw [hp]
  rfl

/-- The sixteen stores tile the block, and each stores the block function over its own lanes: the block the body
    leaves is the block function. -/
theorem out_eq (x0 : Vec Ideal S32768 .i32) (x1 : Vec Ideal S32768 .f32) (x2 : Vec Ideal S256x1 .f32) :
    out0_3 (F := Ideal) x0 x1 x2 = blockVal x0 x1 x2 := by
  funext y
  unfold out0_3
  refine View.canon_apply_of_pieces (Val := Elt Ideal) (S := S32768) (e := .f32) (blockVal x0 x1 x2) _ ?_ y (cover0_3 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  all_goals exact piece_eq x0 x1 x2 _ _ x

end Cert.KernelIdeal.Body

end
-- ==== Proof.Blocks.lean ====
/-
  From the blocks to the array.  The kernel call runs its body at 245 grid points; point t reads block t (32768
  entries) of the padded relation ids and of the padded gathered scores, the whole score column, and writes block t
  of its output.  Block t's entry j sits at array index t · 32768 + j in all three long arrays, so what point t writes
  back is block t of ONE function of the whole arrays (`edgeVal`), and the 245 blocks tile the 8028160 entries: the
  output array ends holding that function.
-/
import proofs.«405953_j13700945674315_1_alg».proof.Proof.Body

set_option maxRecDepth 16384

noncomputable section

namespace Cert.KernelIdeal.Blocks

open Idealize.ShloMosaic Idealize.ShloMosaic.ValueIdx Idealize.SL.Sem Cert.KernelIdeal Cert.KernelIdeal.Gen Cert.EdgeScore
open Cert.KernelIdeal.Body

variable (m : (ℓ : Loc nD τ sig) → Buf (Elt Ideal) ℓ)

/-- The padded relation ids, the padded gathered scores and the score column as the kernel call finds them. -/
abbrev relArr (c : Dev nD) : IVec S8028160 32 := V m c main_v16
abbrev scoreArr (c : Dev nD) : FVec Ideal S8028160 .f32 := V m c main_v17
abbrev colArr (c : Dev nD) : FVec Ideal S256x1 .f32 := V m c main_arg2

/-- The printed index maps over the grid: the three long windows sit at block t, the score column at block (0, 0). -/
theorem idx_facts : ∀ t : Fin cfg0.N, win0_0.index t (0 : Fin 1) = t.val ∧ win0_1.index t (0 : Fin 1) = t.val
    ∧ win0_3.index t (0 : Fin 1) = t.val ∧ win0_2.index t (0 : Fin 2) = 0 ∧ win0_2.index t (1 : Fin 2) = 0 :=
  (by decide +kernel : ∀ t : Fin grid0.N, _)

/-- What point t writes back is block t of `edgeVal` of the three arrays. -/
theorem flushed_eq (c : Dev nD) (t : Fin cfg0.N) :
    (dats m 0 c).flushed 3 t
      = ((cfg0.win 3).blk t).view.read (Elt Ideal) (edgeVal (relArr m c) (scoreArr m c) (colArr m c)) := by
  show (cfg0.win 3).cut (grid0.coords t) ((dats m 0 c).after 3 t) = _
  rw [after0_3, out_eq]
  obtain ⟨e0, e1, e3, e20, e21⟩ := idx_facts t
  funext j
  show hotDot (fun y => V m c main_arg2 (((cfg0.win 2).blk t).view.emb y)) (V m c main_v16 (((cfg0.win 0).blk t).view.emb j))
        * V m c main_v17 (((cfg0.win 1).blk t).view.emb j)
      = hotDot (V m c main_arg2) (V m c main_v16 (((cfg0.win 3).blk t).view.emb j))
        * V m c main_v17 (((cfg0.win 3).blk t).view.emb j)
  have h0 : ((cfg0.win 0).blk t).view.emb j = ((cfg0.win 3).blk t).view.emb j := by
    funext a; apply Fin.ext
    match a with
    | ⟨0, _⟩ => show win0_0.index t (0 : Fin 1) * 32768 + 1 * (j 0).val = win0_3.index t (0 : Fin 1) * 32768 + 1 * (j 0).val; omega
  have h1 : ((cfg0.win 1).blk t).view.emb j = ((cfg0.win 3).blk t).view.emb j := by
    funext a; apply Fin.ext
    match a with
    | ⟨0, _⟩ => show win0_1.index t (0 : Fin 1) * 32768 + 1 * (j 0).val = win0_3.index t (0 : Fin 1) * 32768 + 1 * (j 0).val; omega
  have h2 : ∀ y : S256x1.Idx, ((cfg0.win 2).blk t).view.emb y = y := by
    intro y
    funext a; apply Fin.ext
    match a with
    | ⟨0, _⟩ => show win0_2.index t (0 : Fin 2) * 256 + 1 * (y 0).val = (y 0).val; omega
    | ⟨1, _⟩ => show win0_2.index t (1 : Fin 2) * 1 + 1 * (y 1).val = (y 1).val; omega
  rw [h0, h1]
  simp only [h2]

/-- An index of the output array is in point t's block iff it lies in the block's range. -/
theorem mem_blk (t : Fin cfg0.N) (i : S8028160.Idx) :
    i ∈ ((cfg0.win 3).blk t).view.set
      ↔ ∀ a : Fin 1, win0_3.index t a * S32768.size a ≤ (i a).val ∧ (i a).val < win0_3.index t a * S32768.size a + S32768.size a := by
  show i ∈ ((View.whole main_v18).slice (win0_3.rect t)).set ↔ _
  rw [View.set_slice_whole, Rect.mem_set_unit]
  exact Iff.rfl

/-- The 245 blocks of 32768 tile the 8028160 entries: index i is in block i / 32768. -/
theorem cover (i : S8028160.Idx) :
    ∃ t : Fin cfg0.N, (cfg0.win 3).flush t = true ∧ i ∈ ((cfg0.win 3).blk t).view.set := by
  have hi : (i 0).val < 8028160 := (i 0).isLt
  have ht : (i 0).val / 32768 < cfg0.N := by
    show (i 0).val / 32768 < grid0.N
    rw [N_0]; omega
  refine ⟨⟨(i 0).val / 32768, ht⟩, flush0_3 _, ?_⟩
  rw [mem_blk]
  intro a
  obtain ⟨-, -, e3, -, -⟩ := idx_facts ⟨(i 0).val / 32768, ht⟩
  match a with
  | ⟨0, _⟩ =>
    show win0_3.index ⟨(i 0).val / 32768, ht⟩ (0 : Fin 1) * 32768 ≤ (i 0).val
      ∧ (i 0).val < win0_3.index ⟨(i 0).val / 32768, ht⟩ (0 : Fin 1) * 32768 + 32768
    rw [e3]
    show (i 0).val / 32768 * 32768 ≤ (i 0).val ∧ (i 0).val < (i 0).val / 32768 * 32768 + 32768
    omega

/-- The output array after the kernel call: `edgeVal` of the padded ids, the padded gathered scores and the score
    column, at every entry. -/
theorem final (c : Dev nD) :
    (dats m 0 c).arrAt 3 cfg0.N = edgeVal (relArr m c) (scoreArr m c) (colArr m c) :=
  (dats m 0 c).arrAt_eq_of_cover 3 (edgeVal (relArr m c) (scoreArr m c) (colArr m c))
    (fun t _ => flushed_eq m c t) cover

/-- The same with the three arrays given by what they are known to hold. -/
theorem final_of (c : Dev nD) (R : IVec S8028160 32) (E : FVec Ideal S8028160 .f32) (P : FVec Ideal S256x1 .f32)
    (hR : relArr m c = R) (hE : scoreArr m c = E) (hP : colArr m c = P) :
    (dats m 0 c).arrAt 3 cfg0.N = edgeVal R E P := by
  rw [final, hR, hE, hP]

end Cert.KernelIdeal.Blocks

end
-- ==== Proof.Bridge.lean ====
/-
  The two ways of finding `p[rel k]` agree on the stated domain.

  The reference reads the flattened score table at the relation id (counted from the end when negative, and clamped
  into the table by the gather); the kernel multiplies the id's one-hot row by the score column.  Where the id is one
  of 0…255 neither the wrap nor the clamp moves it, and the one-hot product has one surviving term, so both are
  `p[rel k, 0]`.  The kernel's operands are the reference's padded with zeros past the n-th entry and its result is
  cut back to the first n entries, where padding and cut cancel.
-/
import proofs.«405953_j13700945674315_1_alg».proof.Proof.Spec
import proofs.«405953_j13700945674315_1_alg».proof.Proof.OneHot
import Idealize.ShloMosaic.Lib.KernelVsHost
import Idealize.ShloMosaic.Lib.Pipeline.Value
import Idealize.ShloMosaic.Lib.StableHlo.Predicate
import Idealize.ShloMosaic.Lib.ValueIdx
import Idealize.ShloMosaic.Lib.Affine

noncomputable section
namespace Cert.EdgeScore
open Idealize.ShloMosaic Idealize.ShloMosaic.ValueIdx

/-- The reference's look-up at edge l reads the flattened table at the wrapped id, clamped into [0, 255]. -/
theorem takeRel_ofFin (a2 : FVec Ideal S256x1 .f32) (a3 : IVec S8000000 32) (l : Fin 8000000) :
    takeRel a2 a3 (Shape.Idx.ofFin l)
      = shapeCast S256 a2 (by decide) (Shape.Idx.ofFin ⟨min (wrapRel a3 (Shape.Idx.ofFin l)).toInt.toNat (256 - 1), by omega⟩) := by
  unfold takeRel
  rw [StableHlo.Predicate.gather_take takeDims rfl rfl rfl rfl _ _ l (by decide)]
  have e : broadcastInDim S8000000x1 ![0] (by decide) (wrapRel a3) (StableHlo.Predicate.ixP l) = wrapRel a3 (Shape.Idx.ofFin l) :=
    StableHlo.Predicate.bcast_col1 _ _ l
  exact congrArg (fun w : BitVec 32 => shapeCast S256 a2 (by decide)
    (Shape.Idx.ofFin (⟨min w.toInt.toNat (256 - 1), by omega⟩ : Fin 256))) e

/-- Where the relation id is one of 0…255, the position the table is read at is the id itself. -/
theorem wrapRel_of_range (a3 : IVec S8000000 32) (k : S8000000.Idx) (h0 : 0 ≤ (a3 k).toInt) :
    wrapRel a3 k = a3 k := by
  unfold wrapRel wrapNeg
  rw [select_apply]
  have hb : cmpi .slt a3 (broadcastInDim S8000000 ![] (by decide) (constantI S_ 32 0#32)) k = 0#1 := by
    apply eq_zero_of_ne_one
    intro h1
    have h2 : IntOp.cmpi .slt (a3 k) 0#32 = 1#1 := h1
    have h3 := IntOp.cmpi_slt.1 h2
    rw [show (0#32 : BitVec 32).toInt = 0 from by decide] at h3
    omega
  rw [hb, select_zero]

/-- Where the relation id is one of 0…255, the reference's table look-up reads that id's score. -/
theorem takeRel_of_range (a2 : FVec Ideal S256x1 .f32) (a3 : IVec S8000000 32) (l : Fin 8000000)
    (h0 : 0 ≤ (a3 (ix1 l)).toInt) (hn : (a3 (ix1 l)).toNat < 256) :
    takeRel a2 a3 (ix1 l) = a2 (ix2 ⟨(a3 (ix1 l)).toNat, hn⟩ 0) := by
  have eo : (ix1 l : S8000000.Idx) = Shape.Idx.ofFin l := by
    funext a
    obtain rfl : a = 0 := Subsingleton.elim _ _
    exact Fin.ext rfl
  have hw : wrapRel a3 (Shape.Idx.ofFin l) = a3 (ix1 l) := by
    rw [← eo]; exact wrapRel_of_range a3 _ h0
  rw [show takeRel a2 a3 (ix1 l) = takeRel a2 a3 (Shape.Idx.ofFin l) from congrArg (takeRel a2 a3) eo, takeRel_ofFin]
  refine shapeCast_apply _ _ _ (ix2 ⟨(a3 (ix1 l)).toNat, hn⟩ 0) ?_
  rw [Shape.rowMajor_val_two, Shape.rowMajor_val_one]
  show (a3 (ix1 l)).toNat * 1 + 0 = min (wrapRel a3 (Shape.Idx.ofFin l)).toInt.toNat (256 - 1)
  rw [hw]
  have hi : (a3 (ix1 l)).toInt = ((a3 (ix1 l)).toNat : Int) :=
    BitVec.toInt_eq_toNat_of_lt (BitVec.toInt_pos_iff.mp h0)
  rw [hi, Int.toNat_natCast]
  omega

/-- THE BRIDGE.  Where every relation id is one of 0…255, the first n entries of the kernel call's array — one-hot
    row times score column times gathered score, over the zero-padded operands — are the reference's products
    `p[rel k] · e[row k]`. -/
theorem edge_eq (a2 : FVec Ideal S256x1 .f32) (a3 : IVec S8000000 32) (eg : FVec Ideal S8000000 .f32)
    (hr : ∀ k, 0 ≤ (a3 k).toInt ∧ (a3 k).toInt < 256) :
    extractStridedSlice S8000000 ![0] (edgeVal (padRel a3) (padScore eg) a2) (by decide) = mulf (takeRel a2 a3) eg := by
  funext k
  obtain ⟨l, rfl⟩ : ∃ l : Fin 8000000, k = ix1 l := ⟨k 0, eq_ix1 k⟩
  have hl : l.val < 8028160 := by have := l.isLt; omega
  rw [extractStridedSlice_apply _ _ _ (ix1 l) (ix1 (⟨l.val, hl⟩ : Fin 8028160)) (fun a => by
    obtain rfl : a = 0 := Subsingleton.elim _ _
    show l.val = 0 + l.val; omega)]
  unfold edgeVal padRel padScore
  rw [pad_apply_of_inside _ _ _ a3 _ _ _ (ix1 (⟨l.val, hl⟩ : Fin 8028160)) (ix1 l) (fun a => by
      obtain rfl : a = 0 := Subsingleton.elim _ _
      show l.val = 0 + l.val * (0 + 1); omega),
    pad_apply_of_inside _ _ _ eg _ _ _ (ix1 (⟨l.val, hl⟩ : Fin 8028160)) (ix1 l) (fun a => by
      obtain rfl : a = 0 := Subsingleton.elim _ _
      show l.val = 0 + l.val * (0 + 1); omega)]
  rw [mulf_apply]
  congr 1
  obtain ⟨h0, h1⟩ := hr (ix1 l)
  have hi : (a3 (ix1 l)).toInt = ((a3 (ix1 l)).toNat : Int) :=
    BitVec.toInt_eq_toNat_of_lt (BitVec.toInt_pos_iff.mp h0)
  have hn : (a3 (ix1 l)).toNat < 256 := by omega
  rw [hotDot_of_lt _ _ hn, takeRel_of_range a2 a3 l h0 hn]

end Cert.EdgeScore
end
-- ==== Proof.PreDecode.lean ====
/-
  What the precondition says of the relation ids: the stated domain is "every float input finite, and every relation id
  one of 0…255".  The predicate's last two conjuncts are `all(rel ≥ 0)` and `all(rel < 256)`, each a reduction by
  `and` of a comparison's bits: where the whole predicate is 1, every bit is 1, so every id reads, as a signed integer,
  at least 0 and below 256.
-/
import proofs.«405953_j13700945674315_1_alg».proof.Proof.Gen.Pre_finite_inputs
import Idealize.ShloMosaic.Lib.ReduceAll
import Idealize.ShloMosaic.Lib.ValueIdx
import Idealize.ShloMosaic.PureOps.Ideal

noncomputable section
namespace Cert.EdgeScore.PreDecode

open Idealize.ShloMosaic Idealize.ShloMosaic.ValueIdx Cert.Pre_finite_inputs

instance : Subsingleton S_.Idx := ⟨fun a b => funext fun d => d.elim0⟩

/-- Every relation id lies in [0, 256) where the precondition holds. -/
theorem rel_range (a0 : IVec S2x8000000 32) (a1 : FVec Ideal S100000x1 .f32) (a2 : FVec Ideal S256x1 .f32) (a3 : IVec S8000000 32)
    (h : Cert.Pre_finite_inputs.fn (F := Ideal) a0 a1 a2 a3 = fun _ => 1#1) (k : S8000000.Idx) :
    0 ≤ (a3 k).toInt ∧ (a3 k).toInt < 256 := by
  have h0 := congrFun h ix0
  dsimp only [fn, fn_part1] at h0
  obtain ⟨h12, h15⟩ := IntOp.andi_eq_one.1 h0
  obtain ⟨-, h11⟩ := IntOp.andi_eq_one.1 h12
  have g1 := Host.reduce_andi_all _ _ _ _ ix0 h11 k
  have g2 := Host.reduce_andi_all _ _ _ _ ix0 h15 k
  have e1 : IntOp.cmpi .sge (a3 k) 0#32 = 1#1 := g1
  have e2 : IntOp.cmpi .slt (a3 k) 256#32 = 1#1 := g2
  have f1 := IntOp.cmpi_sge.1 e1
  have f2 := IntOp.cmpi_slt.1 e2
  rw [show (0#32 : BitVec 32).toInt = 0 from by decide] at f1
  rw [show (256#32 : BitVec 32).toInt = 256 from by decide] at f2
  exact ⟨f1, f2⟩

end Cert.EdgeScore.PreDecode
end
-- ==== Proof.KernelValue.lean ====
/-
  The kernel program's result on the stated domain.

  Its run leaves in the result buffer the bin sums of the first n entries of the kernel call's output array; that
  array holds, entry by entry, the one-hot row of the (zero-padded) relation id times the score column times the
  (zero-padded) gathered entity score; and where every relation id is one of 0…255 those first n entries are the
  reference's products `p[rel k] · e[row k]`.  So the result is the reference's function of the four arguments.
-/
import proofs.«405953_j13700945674315_1_alg».proof.Defs
import proofs.«405953_j13700945674315_1_alg».proof.Proof.Gen.Pre_finite_inputs
import proofs.«405953_j13700945674315_1_alg».proof.Proof.KernelHost
import proofs.«405953_j13700945674315_1_alg».proof.Proof.Blocks
import proofs.«405953_j13700945674315_1_alg».proof.Proof.Bridge
import proofs.«405953_j13700945674315_1_alg».proof.Proof.PreDecode

noncomputable section

namespace Cert.KernelIdeal.Result

open Idealize.ShloMosaic Idealize.ShloMosaic.TcCoe Idealize.SL Idealize.SL.Sem
open Cert.KernelIdeal Cert.KernelIdeal.Gen Cert.EdgeScore

variable (m : (ℓ : Loc nD τ sig) → Buf (Elt Ideal) ℓ) (ρ : Dev nD → PrngReg)

/-- On the stated domain the bin sums of the kernel call's array are the reference's result. -/
theorem out_eq (c : Dev nD) (hpre : Cert.Pre_KernelIdeal (hPre_finite_inputs := Cert.Pre_finite_inputs.Gen.facts) m) :
    kernOut (m ((c.tc : Thread nD τ).loc main_arg0)) ((dats m 0 c).arrAt 3 cfg0.N)
      = refOut (F := Ideal) (m ((c.tc : Thread nD τ).loc main_arg0)) (m ((c.tc : Thread nD τ).loc main_arg1))
          (m ((c.tc : Thread nD τ).loc main_arg2)) (m ((c.tc : Thread nD τ).loc main_arg3)) := by
  have hr := PreDecode.rel_range _ _ _ _ (hpre c)
  rw [Blocks.final_of m c _ _ _ (Host.relPad m c) (Host.scorePad m c) (V_main_arg2 m c)]
  unfold kernOut refOut
  rw [edge_eq _ _ _ hr]

/-- The kernel program runs, ends with the reference's function of its arguments in the result buffer, and leaves
    the arguments as they were. -/
theorem run (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v22)
        = refOut (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (out_eq m c hpre), (h c).2⟩) (Host.run (F := Ideal) m ρ)

end Cert.KernelIdeal.Result

end
-- ==== Proof.RefRun.lean ====
/-
  The reference program's run.

  The reference has no kernel: its @main is a straight line of 55 host operations — thirty of its own, then the
  twenty-one of the floor-mod it calls (the divisor's guard against zero, the truncated remainder, and the
  correction of that remainder where its sign differs from the divisor's), then four more: the zero bins, the
  bin of each edge as a column of positions, and the sum into bins.  A call executes the callee's body on the
  caller's buffers, so the line is the caller's operations with the callee's written in their place, each
  over the buffer the call gives that value.

  From any memory with zero counters every weakly fair execution of that line terminates, and each buffer then
  holds the composition of the operations that feed it, applied to the four arguments' contents at launch.  For
  the result buffer that composition is `Cert.EdgeScore.refOut`: per entity bin b,
      y[b] = Σ_{k : seg k = b} p[rel k] · e[row k].
  No operation writes an argument's buffer, so the four arguments end as they began.
-/
import proofs.«405953_j13700945674315_1_alg».proof.Proof.Gen.ReferenceIdeal
import proofs.«405953_j13700945674315_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 55 operations in order, the call written out. Thirty of @main: the relation score of each edge looked
    up in the flattened table at its relation id (counted from the end when negative); the entity of each edge
    (likewise) paired with column 0 and looked up in the entity scores; the product of the two; the column of
    each edge and the number of entities. Then the callee's twenty-one over the call's buffers, its operands the
    column of each edge and the number of entities, its last result the buffer @main names for the call's value.
    Then four of @main: the zero bins, each edge's bin as a column of positions, the sum into bins. -/
abbrev ops : List (HloOp τ sig (Elt F)) :=
  [ StableHlo.reshape main_arg2 main_v0 rfl shapeCasts_S256x1_S256,
    StableHlo.nullary main_c (constantI S_ 32 0#32),
    StableHlo.unary main_c main_v1 (broadcastInDim S8000000 ![] bcast_S_S8000000 : (⟨S_, .i32⟩ : BufTy).Contents (Elt F) → (⟨S8000000, .i32⟩ : BufTy).Contents (Elt F)),
    StableHlo.binary main_arg3 main_v1 main_v2 (cmpi .slt : (⟨S8000000, .i32⟩ : BufTy).Contents (Elt F) → (⟨S8000000, .i32⟩ : BufTy).Contents (Elt F) → (⟨S8000000, .i1⟩ : BufTy).Contents (Elt F)),
    StableHlo.nullary main_c_0 (constantI S_ 32 256#32),
    StableHlo.unary main_c_0 main_v3 (broadcastInDim S8000000 ![] bcast_S_S8000000 : (⟨S_, .i32⟩ : BufTy).Contents (Elt F) → (⟨S8000000, .i32⟩ : BufTy).Contents (Elt F)),
    StableHlo.binary main_arg3 main_v3 main_v4 (addi : (⟨S8000000, .i32⟩ : BufTy).Contents (Elt F) → (⟨S8000000, .i32⟩ : BufTy).Contents (Elt F) → (⟨S8000000, .i32⟩ : BufTy).Contents (Elt F)),
    StableHlo.ternary main_v2 main_v4 main_arg3 main_v5 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v5 main_v6 (broadcastInDim S8000000x1 ![0] bcast_S8000000_S8000000x1_0 : (⟨S8000000, .i32⟩ : BufTy).Contents (Elt F) → (⟨S8000000x1, .i32⟩ : BufTy).Contents (Elt F)),
    StableHlo.binary main_v0 main_v6 main_v7 ((fun x i => Host.gather gather_S256_S8000000x1_S8000000_n_0_n_n_0_1_1 x i) : (⟨S256, .f32⟩ : BufTy).Contents (Elt F) → (⟨S8000000x1, .i32⟩ : BufTy).Contents (Elt F) → (⟨S8000000, .f32⟩ : BufTy).Contents (Elt F)),
    StableHlo.unary main_arg0 main_v8 ((extractStridedSlice S1x8000000 ![0, 0] · slices_S2x8000000_S1x8000000_0_0) : (⟨S2x8000000, .i32⟩ : BufTy).Contents (Elt F) → (⟨S1x8000000, .i32⟩ : BufTy).Contents (Elt F)),
    StableHlo.reshape main_v8 main_v9 rfl shapeCasts_S1x8000000_S8000000,
    StableHlo.nullary main_c_1 (constantI S_ 32 0#32),
    StableHlo.unary main_c_1 main_v10 (broadcastInDim S8000000 ![] bcast_S_S8000000 : (⟨S_, .i32⟩ : BufTy).Contents (Elt F) → (⟨S8000000, .i32⟩ : BufTy).Contents (Elt F)),
    StableHlo.binary main_v9 main_v10 main_v11 (cmpi .slt : (⟨S8000000, .i32⟩ : BufTy).Contents (Elt F) → (⟨S8000000, .i32⟩ : BufTy).Contents (Elt F) → (⟨S8000000, .i1⟩ : BufTy).Contents (Elt F)),
    StableHlo.nullary main_c_2 (constantI S_ 32 100000#32),
    StableHlo.unary main_c_2 main_v12 (broadcastInDim S8000000 ![] bcast_S_S8000000 : (⟨S_, .i32⟩ : BufTy).Contents (Elt F) → (⟨S8000000, .i32⟩ : BufTy).Contents (Elt F)),
    StableHlo.binary main_v9 main_v12 main_v13 (addi : (⟨S8000000, .i32⟩ : BufTy).Contents (Elt F) → (⟨S8000000, .i32⟩ : BufTy).Contents (Elt F) → (⟨S8000000, .i32⟩ : BufTy).Contents (Elt F)),
    StableHlo.ternary main_v11 main_v13 main_v9 main_v14 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.nullary main_c_3 (constantI S_ 32 0#32),
    StableHlo.unary main_c_3 main_v15 (broadcastInDim S8000000 ![] bcast_S_S8000000 : (⟨S_, .i32⟩ : BufTy).Contents (Elt F) → (⟨S8000000, .i32⟩ : BufTy).Contents (Elt F)),
    StableHlo.unary main_v15 main_v16 (id : (⟨S8000000, .i32⟩ : BufTy).Contents (Elt F) → (⟨S8000000, .i32⟩ : BufTy).Contents (Elt F)),
    StableHlo.unary main_v14 main_v17 (broadcastInDim S8000000x1 ![0] bcast_S8000000_S8000000x1_0 : (⟨S8000000, .i32⟩ : BufTy).Contents (Elt F) → (⟨S8000000x1, .i32⟩ : BufTy).Contents (Elt F)),
    StableHlo.unary main_v16 main_v18 (broadcastInDim S8000000x1 ![0] bcast_S8000000_S8000000x1_0 : (⟨S8000000, .i32⟩ : BufTy).Contents (Elt F) → (⟨S8000000x1, .i32⟩ : BufTy).Contents (Elt F)),
    StableHlo.binary main_v17 main_v18 main_v19 ((fun a b => concatenate S8000000x2 1 [⟨S8000000x1, a⟩, ⟨S8000000x1, b⟩] concatenates_S8000000x1_S8000000x1_S8000000x2_d1) : (⟨S8000000x1, .i32⟩ : BufTy).Contents (Elt F) → (⟨S8000000x1, .i32⟩ : BufTy).Contents (Elt F) → (⟨S8000000x2, .i32⟩ : BufTy).Contents (Elt F)),
    StableHlo.binary main_arg1 main_v19 main_v20 ((fun x i => Host.gather gather_S100000x1_S8000000x2_S8000000_n_01_n_n_01_1_11 x i) : (⟨S100000x1, .f32⟩ : BufTy).Contents (Elt F) → (⟨S8000000x2, .i32⟩ : BufTy).Contents (Elt F) → (⟨S8000000, .f32⟩ : BufTy).Contents (Elt F)),
    StableHlo.binary main_v7 main_v20 main_v21 (mulf : (⟨S8000000, .f32⟩ : BufTy).Contents (Elt F) → (⟨S8000000, .f32⟩ : BufTy).Contents (Elt F) → (⟨S8000000, .f32⟩ : BufTy).Contents (Elt F)),
    StableHlo.unary main_arg0 main_v22 ((extractStridedSlice S1x8000000 ![1, 0] · slices_S2x8000000_S1x8000000_1_0) : (⟨S2x8000000, .i32⟩ : BufTy).Contents (Elt F) → (⟨S1x8000000, .i32⟩ : BufTy).Contents (Elt F)),
    StableHlo.reshape main_v22 main_v23 rfl shapeCasts_S1x8000000_S8000000,
    StableHlo.nullary main_c_4 (constantI S_ 32 100000#32),
    StableHlo.TRef.unary (.of main_c_4 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0_call0.v0 select,
    StableHlo.TRef.unary main_call0_call0.v0 main_call0.v3 (broadcastInDim S8000000 ![] bcast_S_S8000000),
    StableHlo.TRef.binary (.of main_v23 : StableHlo.TRef sig ⟨S8000000, .i32⟩) main_call0.v3 main_call0.v4 Host.remsi,
    StableHlo.TRef.nullary main_call0.c_1 (constantI S_ 32 0#32),
    StableHlo.TRef.unary main_call0.c_1 main_call0.v5 (broadcastInDim S8000000 ![] bcast_S_S8000000),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8000000 ![] bcast_S_S8000000),
    StableHlo.TRef.binary main_call0.v4 main_call0.v7 main_call0.v8 (cmpi .slt),
    StableHlo.TRef.nullary main_call0.c_3 (constantI S_ 32 0#32),
    StableHlo.TRef.binary main_call0_call0.v0 main_call0.c_3 main_call0.v9 (cmpi .slt),
    StableHlo.TRef.unary main_call0.v9 main_call0.v10 (broadcastInDim S8000000 ![] bcast_S_S8000000),
    StableHlo.TRef.binary main_call0.v8 main_call0.v10 main_call0.v11 (cmpi .ne),
    StableHlo.TRef.binary main_call0.v11 main_call0.v6 main_call0.v12 andi,
    StableHlo.TRef.unary main_call0_call0.v0 main_call0.v13 (broadcastInDim S8000000 ![] bcast_S_S8000000),
    StableHlo.TRef.binary main_call0.v4 main_call0.v13 main_call0.v14 addi,
    StableHlo.TRef.ternary main_call0.v12 main_call0.v14 main_call0.v4 main_call0.v15 select,
    StableHlo.nullary main_cst (constant S_ .f32 0x00000000#32),
    StableHlo.unary main_cst main_v25 (broadcastInDim S100000 ![] bcast_S_S100000 : (⟨S_, .f32⟩ : BufTy).Contents (Elt F) → (⟨S100000, .f32⟩ : BufTy).Contents (Elt F)),
    StableHlo.unary main_v24 main_v26 (broadcastInDim S8000000x1 ![0] bcast_S8000000_S8000000x1_0 : (⟨S8000000, .i32⟩ : BufTy).Contents (Elt F) → (⟨S8000000x1, .i32⟩ : BufTy).Contents (Elt F)),
    StableHlo.ternary main_v25 main_v26 main_v21 main_v27 ((fun x i u => Host.scatterAdd scatter_S100000_S8000000x1_S8000000_n_0_0_1 x i u) : (⟨S100000, .f32⟩ : BufTy).Contents (Elt F) → (⟨S8000000x1, .i32⟩ : BufTy).Contents (Elt F) → (⟨S8000000, .f32⟩ : BufTy).Contents (Elt F) → (⟨S100000, .f32⟩ : BufTy).Contents (Elt F)) ]

-- the line is fifty-five steps long, and re-associating its sequencing recurses once per step
set_option maxRecDepth 1024 in
set_option maxHeartbeats 400000 in
/-- @main is that straight line: with the callee's definitions unfolded at the call and the call's record at its
    fields, both sides are one sequence of the same steps once sequencing is reassociated. -/
theorem main_eq (c : Dev nD) : main (F := F) c = seq ops := by
  simp only [main, fn_remainder.body, fn_where.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., reshape_bufs_sub ..,
    nullary_bufs_sub .., unary_bufs_sub .., binary_bufs_sub .., nullary_bufs_sub .., unary_bufs_sub .., binary_bufs_sub ..,
    ternary_bufs_sub .., nullary_bufs_sub .., unary_bufs_sub .., unary_bufs_sub .., unary_bufs_sub .., unary_bufs_sub ..,
    binary_bufs_sub .., binary_bufs_sub .., binary_bufs_sub .., unary_bufs_sub .., reshape_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., unary_bufs_sub ..,
    ternary_bufs_sub ..⟩

/-! ## The line in four stretches

What a buffer holds after the line is the fold of the operations' results over the launch contents. The fold is
taken a stretch at a time: after each stretch, the buffers a later stretch reads are named functions of the
buffers the stretch found. The second stretch begins at the pairing of the two index columns, so that the
columns it pairs are buffers it finds, not values it computes. -/

/-- The first stretch, twenty-four operations: the relation score of each edge, and the two columns of the
    (entity, 0) start pairs. -/
def opsP1 : List (HloOp τ sig (Elt F)) :=
  [ StableHlo.reshape main_arg2 main_v0 rfl shapeCasts_S256x1_S256,
    StableHlo.nullary main_c (constantI S_ 32 0#32),
    StableHlo.unary main_c main_v1 (broadcastInDim S8000000 ![] bcast_S_S8000000 : (⟨S_, .i32⟩ : BufTy).Contents (Elt F) → (⟨S8000000, .i32⟩ : BufTy).Contents (Elt F)),
    StableHlo.binary main_arg3 main_v1 main_v2 (cmpi .slt : (⟨S8000000, .i32⟩ : BufTy).Contents (Elt F) → (⟨S8000000, .i32⟩ : BufTy).Contents (Elt F) → (⟨S8000000, .i1⟩ : BufTy).Contents (Elt F)),
    StableHlo.nullary main_c_0 (constantI S_ 32 256#32),
    StableHlo.unary main_c_0 main_v3 (broadcastInDim S8000000 ![] bcast_S_S8000000 : (⟨S_, .i32⟩ : BufTy).Contents (Elt F) → (⟨S8000000, .i32⟩ : BufTy).Contents (Elt F)),
    StableHlo.binary main_arg3 main_v3 main_v4 (addi : (⟨S8000000, .i32⟩ : BufTy).Contents (Elt F) → (⟨S8000000, .i32⟩ : BufTy).Contents (Elt F) → (⟨S8000000, .i32⟩ : BufTy).Contents (Elt F)),
    StableHlo.ternary main_v2 main_v4 main_arg3 main_v5 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.unary main_v5 main_v6 (broadcastInDim S8000000x1 ![0] bcast_S8000000_S8000000x1_0 : (⟨S8000000, .i32⟩ : BufTy).Contents (Elt F) → (⟨S8000000x1, .i32⟩ : BufTy).Contents (Elt F)),
    StableHlo.binary main_v0 main_v6 main_v7 ((fun x i => Host.gather gather_S256_S8000000x1_S8000000_n_0_n_n_0_1_1 x i) : (⟨S256, .f32⟩ : BufTy).Contents (Elt F) → (⟨S8000000x1, .i32⟩ : BufTy).Contents (Elt F) → (⟨S8000000, .f32⟩ : BufTy).Contents (Elt F)),
    StableHlo.unary main_arg0 main_v8 ((extractStridedSlice S1x8000000 ![0, 0] · slices_S2x8000000_S1x8000000_0_0) : (⟨S2x8000000, .i32⟩ : BufTy).Contents (Elt F) → (⟨S1x8000000, .i32⟩ : BufTy).Contents (Elt F)),
    StableHlo.reshape main_v8 main_v9 rfl shapeCasts_S1x8000000_S8000000,
    StableHlo.nullary main_c_1 (constantI S_ 32 0#32),
    StableHlo.unary main_c_1 main_v10 (broadcastInDim S8000000 ![] bcast_S_S8000000 : (⟨S_, .i32⟩ : BufTy).Contents (Elt F) → (⟨S8000000, .i32⟩ : BufTy).Contents (Elt F)),
    StableHlo.binary main_v9 main_v10 main_v11 (cmpi .slt : (⟨S8000000, .i32⟩ : BufTy).Contents (Elt F) → (⟨S8000000, .i32⟩ : BufTy).Contents (Elt F) → (⟨S8000000, .i1⟩ : BufTy).Contents (Elt F)),
    StableHlo.nullary main_c_2 (constantI S_ 32 100000#32),
    StableHlo.unary main_c_2 main_v12 (broadcastInDim S8000000 ![] bcast_S_S8000000 : (⟨S_, .i32⟩ : BufTy).Contents (Elt F) → (⟨S8000000, .i32⟩ : BufTy).Contents (Elt F)),
    StableHlo.binary main_v9 main_v12 main_v13 (addi : (⟨S8000000, .i32⟩ : BufTy).Contents (Elt F) → (⟨S8000000, .i32⟩ : BufTy).Contents (Elt F) → (⟨S8000000, .i32⟩ : BufTy).Contents (Elt F)),
    StableHlo.ternary main_v11 main_v13 main_v9 main_v14 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    StableHlo.nullary main_c_3 (constantI S_ 32 0#32),
    StableHlo.unary main_c_3 main_v15 (broadcastInDim S8000000 ![] bcast_S_S8000000 : (⟨S_, .i32⟩ : BufTy).Contents (Elt F) → (⟨S8000000, .i32⟩ : BufTy).Contents (Elt F)),
    StableHlo.unary main_v15 main_v16 (id : (⟨S8000000, .i32⟩ : BufTy).Contents (Elt F) → (⟨S8000000, .i32⟩ : BufTy).Contents (Elt F)),
    StableHlo.unary main_v14 main_v17 (broadcastInDim S8000000x1 ![0] bcast_S8000000_S8000000x1_0 : (⟨S8000000, .i32⟩ : BufTy).Contents (Elt F) → (⟨S8000000x1, .i32⟩ : BufTy).Contents (Elt F)),
    StableHlo.unary main_v16 main_v18 (broadcastInDim S8000000x1 ![0] bcast_S8000000_S8000000x1_0 : (⟨S8000000, .i32⟩ : BufTy).Contents (Elt F) → (⟨S8000000x1, .i32⟩ : BufTy).Contents (Elt F)) ]

/-- The second stretch, six operations, from the pairing of those two columns: the entity score of each edge,
    the contributions, the column of each edge and the number of entities. -/
def opsP2 : List (HloOp τ sig (Elt F)) :=
  [ StableHlo.binary main_v17 main_v18 main_v19 ((fun a b => concatenate S8000000x2 1 [⟨S8000000x1, a⟩, ⟨S8000000x1, b⟩] concatenates_S8000000x1_S8000000x1_S8000000x2_d1) : (⟨S8000000x1, .i32⟩ : BufTy).Contents (Elt F) → (⟨S8000000x1, .i32⟩ : BufTy).Contents (Elt F) → (⟨S8000000x2, .i32⟩ : BufTy).Contents (Elt F)),
    StableHlo.binary main_arg1 main_v19 main_v20 ((fun x i => Host.gather gather_S100000x1_S8000000x2_S8000000_n_01_n_n_01_1_11 x i) : (⟨S100000x1, .f32⟩ : BufTy).Contents (Elt F) → (⟨S8000000x2, .i32⟩ : BufTy).Contents (Elt F) → (⟨S8000000, .f32⟩ : BufTy).Contents (Elt F)),
    StableHlo.binary main_v7 main_v20 main_v21 (mulf : (⟨S8000000, .f32⟩ : BufTy).Contents (Elt F) → (⟨S8000000, .f32⟩ : BufTy).Contents (Elt F) → (⟨S8000000, .f32⟩ : BufTy).Contents (Elt F)),
    StableHlo.unary main_arg0 main_v22 ((extractStridedSlice S1x8000000 ![1, 0] · slices_S2x8000000_S1x8000000_1_0) : (⟨S2x8000000, .i32⟩ : BufTy).Contents (Elt F) → (⟨S1x8000000, .i32⟩ : BufTy).Contents (Elt F)),
    StableHlo.reshape main_v22 main_v23 rfl shapeCasts_S1x8000000_S8000000,
    StableHlo.nullary main_c_4 (constantI S_ 32 100000#32) ]

/-- The callee's stretch: the twenty-one operations of the floor-mod, over the call's buffers. -/
def opsE : List (HloOp τ sig (Elt F)) :=
  [ StableHlo.TRef.unary (.of main_c_4 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0_call0.v0 select,
    StableHlo.TRef.unary main_call0_call0.v0 main_call0.v3 (broadcastInDim S8000000 ![] bcast_S_S8000000),
    StableHlo.TRef.binary (.of main_v23 : StableHlo.TRef sig ⟨S8000000, .i32⟩) main_call0.v3 main_call0.v4 Host.remsi,
    StableHlo.TRef.nullary main_call0.c_1 (constantI S_ 32 0#32),
    StableHlo.TRef.unary main_call0.c_1 main_call0.v5 (broadcastInDim S8000000 ![] bcast_S_S8000000),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S8000000 ![] bcast_S_S8000000),
    StableHlo.TRef.binary main_call0.v4 main_call0.v7 main_call0.v8 (cmpi .slt),
    StableHlo.TRef.nullary main_call0.c_3 (constantI S_ 32 0#32),
    StableHlo.TRef.binary main_call0_call0.v0 main_call0.c_3 main_call0.v9 (cmpi .slt),
    StableHlo.TRef.unary main_call0.v9 main_call0.v10 (broadcastInDim S8000000 ![] bcast_S_S8000000),
    StableHlo.TRef.binary main_call0.v8 main_call0.v10 main_call0.v11 (cmpi .ne),
    StableHlo.TRef.binary main_call0.v11 main_call0.v6 main_call0.v12 andi,
    StableHlo.TRef.unary main_call0_call0.v0 main_call0.v13 (broadcastInDim S8000000 ![] bcast_S_S8000000),
    StableHlo.TRef.binary main_call0.v4 main_call0.v13 main_call0.v14 addi,
    StableHlo.TRef.ternary main_call0.v12 main_call0.v14 main_call0.v4 main_call0.v15 select ]

/-- The last stretch, four operations: the zero bins, the bins as a column of positions, the sum into bins. -/
def opsF : List (HloOp τ sig (Elt F)) :=
  [ StableHlo.nullary main_cst (constant S_ .f32 0x00000000#32),
    StableHlo.unary main_cst main_v25 (broadcastInDim S100000 ![] bcast_S_S100000 : (⟨S_, .f32⟩ : BufTy).Contents (Elt F) → (⟨S100000, .f32⟩ : BufTy).Contents (Elt F)),
    StableHlo.unary main_v24 main_v26 (broadcastInDim S8000000x1 ![0] bcast_S8000000_S8000000x1_0 : (⟨S8000000, .i32⟩ : BufTy).Contents (Elt F) → (⟨S8000000x1, .i32⟩ : BufTy).Contents (Elt F)),
    StableHlo.ternary main_v25 main_v26 main_v21 main_v27 ((fun x i u => Host.scatterAdd scatter_S100000_S8000000x1_S8000000_n_0_0_1 x i u) : (⟨S100000, .f32⟩ : BufTy).Contents (Elt F) → (⟨S8000000x1, .i32⟩ : BufTy).Contents (Elt F) → (⟨S8000000, .f32⟩ : BufTy).Contents (Elt F) → (⟨S100000, .f32⟩ : BufTy).Contents (Elt F)) ]

/-- The line is its four stretches in order. -/
theorem ops_split : (ops : List (HloOp τ sig (Elt F))) = opsP1 ++ (opsP2 ++ (opsE ++ opsF)) := rfl

/-- After two lines run one after the other a buffer holds the second line's fold over what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => after_app l₁ l₂ (op.result V)

attribute [local irreducible] Host.gather Host.scatterAdd Host.remsi in
set_option maxRecDepth 4096 in
set_option maxHeartbeats 400000 in
/-- After the first stretch: the relation score of each edge, `p.reshape(-1)[rel k]`. -/
theorem p1_v7 (W : Valuation τ sig (Elt F)) :
    after opsP1 W (main_v7 : DevRef τ sig) = Cert.EdgeScore.takeRel (W (main_arg2 : DevRef τ sig)) (W (main_arg3 : DevRef τ sig)) := by
  unfold opsP1
  after_results_simp <;> rfl

attribute [local irreducible] Host.gather Host.scatterAdd Host.remsi in
set_option maxRecDepth 4096 in
set_option maxHeartbeats 400000 in
/-- After the first stretch: the entity of each edge, counted from the end when negative, as a column. -/
theorem p1_v17 (W : Valuation τ sig (Elt F)) :
    after opsP1 W (main_v17 : DevRef τ sig) = broadcastInDim Cert.EdgeScore.S8000000x1 ![0] (by decide) (Cert.EdgeScore.wrapNeg 100000#32 (Cert.EdgeScore.rowIds (W (main_arg0 : DevRef τ sig)))) := by
  unfold opsP1
  after_results_simp <;> rfl

attribute [local irreducible] Host.gather Host.scatterAdd Host.remsi in
set_option maxRecDepth 4096 in
set_option maxHeartbeats 400000 in
/-- After the first stretch: the column of zeros the entities are paired with. -/
theorem p1_v18 (W : Valuation τ sig (Elt F)) :
    after opsP1 W (main_v18 : DevRef τ sig) = (broadcastInDim Cert.EdgeScore.S8000000x1 ![0] (by decide) (id (broadcastInDim Cert.EdgeScore.S8000000 ![] (by decide) (constantI Cert.EdgeScore.S_ 32 0#32) : IVec Cert.EdgeScore.S8000000 32)) : IVec Cert.EdgeScore.S8000000x1 32) := by
  unfold opsP1
  after_results_simp <;> rfl

set_option maxRecDepth 4096 in
set_option maxHeartbeats 400000 in
/-- The first stretch leaves the index pair as it was. -/
theorem p1_arg0 (W : Valuation τ sig (Elt F)) :
    after opsP1 W (main_arg0 : DevRef τ sig) = W (main_arg0 : DevRef τ sig) := by
  unfold opsP1
  after_results_simp

set_option maxRecDepth 4096 in
set_option maxHeartbeats 400000 in
/-- The first stretch leaves the entity scores as they were. -/
theorem p1_arg1 (W : Valuation τ sig (Elt F)) :
    after opsP1 W (main_arg1 : DevRef τ sig) = W (main_arg1 : DevRef τ sig) := by
  unfold opsP1
  after_results_simp

attribute [local irreducible] Host.gather Host.scatterAdd Host.remsi in
set_option maxRecDepth 4096 in
set_option maxHeartbeats 400000 in
/-- After the second stretch: each edge's contribution, its relation score times the entity score at its
    (entity, 0) pair, in terms of what the first stretch left. -/
theorem p2_v21 (W : Valuation τ sig (Elt F)) :
    after opsP2 W (main_v21 : DevRef τ sig) = mulf (W (main_v7 : DevRef τ sig)) (Host.gather Cert.EdgeScore.pairDims (W (main_arg1 : DevRef τ sig)) (concatenate Cert.EdgeScore.S8000000x2 1 [⟨Cert.EdgeScore.S8000000x1, W (main_v17 : DevRef τ sig)⟩, ⟨Cert.EdgeScore.S8000000x1, W (main_v18 : DevRef τ sig)⟩] Cert.EdgeScore.pairCols)) := by
  unfold opsP2
  after_results_simp <;> rfl

attribute [local irreducible] Host.gather Host.scatterAdd Host.remsi in
set_option maxRecDepth 4096 in
set_option maxHeartbeats 400000 in
/-- After the second stretch: the column of each edge. -/
theorem p2_v23 (W : Valuation τ sig (Elt F)) :
    after opsP2 W (main_v23 : DevRef τ sig) = Cert.EdgeScore.colIds (W (main_arg0 : DevRef τ sig)) := by
  unfold opsP2
  after_results_simp <;> rfl

attribute [local irreducible] Host.gather Host.scatterAdd Host.remsi in
set_option maxRecDepth 4096 in
set_option maxHeartbeats 400000 in
/-- After the second stretch: the number of entities, the floor-mod's divisor. -/
theorem p2_c4 (W : Valuation τ sig (Elt F)) :
    after opsP2 W (main_c_4 : DevRef τ sig) = (constantI Cert.EdgeScore.S_ 32 100000#32 : IVec Cert.EdgeScore.S_ 32) := by
  unfold opsP2
  after_results_simp <;> rfl

attribute [local irreducible] Host.gather Host.scatterAdd Host.remsi in
set_option maxRecDepth 4096 in
set_option maxHeartbeats 400000 in
/-- After the callee's stretch the call's value is the floor-mod of its two operands: the divisor guarded
    against zero, the truncated remainder, and that remainder moved by the divisor where its sign differs
    from the divisor's and it is not zero. -/
theorem e_v24 (W : Valuation τ sig (Elt F)) :
    after opsE W (main_v24 : DevRef τ sig) = Cert.EdgeScore.floorMod (W (main_v23 : DevRef τ sig)) (W (main_c_4 : DevRef τ sig)) := by
  unfold opsE
  after_results_simp <;> (try simp only [TRef.ofBuf, TRef.toBuf, cast_eq]) <;> rfl

set_option maxRecDepth 4096 in
set_option maxHeartbeats 400000 in
/-- The callee's stretch leaves the contributions as they were. -/
theorem e_v21 (W : Valuation τ sig (Elt F)) :
    after opsE W (main_v21 : DevRef τ sig) = W (main_v21 : DevRef τ sig) := by
  unfold opsE
  after_results_simp

attribute [local irreducible] Host.gather Host.scatterAdd Host.remsi in
set_option maxRecDepth 4096 in
set_option maxHeartbeats 400000 in
/-- After the last stretch the result buffer is the sum into bins of what it finds: bin b receives the
    contributions of the edges whose bin is b. -/
theorem f_v27 (W : Valuation τ sig (Elt F)) :
    after opsF W (main_v27 : DevRef τ sig) = Cert.EdgeScore.binSum (W (main_v24 : DevRef τ sig)) (W (main_v21 : DevRef τ sig)) := by
  unfold opsF
  after_results_simp <;> rfl

/-! ## The whole line -/

attribute [local irreducible] Host.gather Host.scatterAdd Host.remsi in
set_option maxRecDepth 4096 in
set_option maxHeartbeats 400000 in
/-- After the whole line the result buffer holds `refOut` of the four arguments' contents: the stretches'
    equations composed, last stretch first. The look-ups, the remainder and the sum into bins stay folded
    throughout: the two sides apply them to the same operands, and neither is ever evaluated. -/
theorem out_eq (V : Valuation τ sig (Elt F)) :
    after ops V (main_v27 : DevRef τ sig)
      = Cert.EdgeScore.refOut (V (main_arg0 : DevRef τ sig)) (V (main_arg1 : DevRef τ sig)) (V (main_arg2 : DevRef τ sig))
          (V (main_arg3 : DevRef τ sig)) := by
  rw [ops_split, after_app, after_app, after_app, f_v27, e_v24, e_v21, p2_v23, p2_c4, p2_v21, p1_v7, p1_v17, p1_v18,
    p1_arg0, p1_arg1]
  rfl

/-- No operation of the line writes argument 0's buffer: it ends as it began. -/
theorem arg0_eq (V : Valuation τ sig (Elt F)) :
    after ops V (main_arg0 : DevRef τ sig) = V (main_arg0 : DevRef τ sig) := by
  after_results_simp

/-- No operation of the line writes argument 1's buffer: it ends as it began. -/
theorem arg1_eq (V : Valuation τ sig (Elt F)) :
    after ops V (main_arg1 : DevRef τ sig) = V (main_arg1 : DevRef τ sig) := by
  after_results_simp

/-- No operation of the line writes argument 2's buffer: it ends as it began. -/
theorem arg2_eq (V : Valuation τ sig (Elt F)) :
    after ops V (main_arg2 : DevRef τ sig) = V (main_arg2 : DevRef τ sig) := by
  after_results_simp

/-- No operation of the line writes argument 3's buffer: it ends as it began. -/
theorem arg3_eq (V : Valuation τ sig (Elt F)) :
    after ops V (main_arg3 : DevRef τ sig) = V (main_arg3 : DevRef τ sig) := by
  after_results_simp

/-- On every device, for any float values, from any memory with zero counters: every weakly fair execution of
    @main terminates with the result buffer at `refOut` of the arguments' launch contents and the four
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = Cert.EdgeScore.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v27).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.lean ====
/-
  The kernel computes, per entity bin b,   y[b] = Σ_{k : col k mod E = b} p[rel k] · e[row k]   over n = 8 000 000 edges,
  and so does the reference; the claim is their equality over the extended reals on the stated domain (every float
  input finite, every relation id one of 0…255: outside that range the reference's table look-up wraps and clamps
  the id while the kernel's one-hot row is all zeros).

  Both programs take the same host steps for `e[row k]`, for the bins `col k mod E` and for the sum into bins.  They
  differ in `p[rel k]`: the reference indexes the flattened score table; the kernel, over edges padded with zeros to
  245 blocks of 32768, multiplies the one-hot row of each relation id by the score column (a [2048 × 256] by
  [256 × 1] product per chunk of lanes, sixteen chunks per block).  On the extended reals that product is the plain
  sum Σ_j [rel k = j] · p[j], whose one surviving term is p[rel k] when the id is in range (0 · x = 0 for every
  extended real x, so no finiteness is used).  Cutting the padded result back to n entries undoes the padding.

  The frames of the two kernel programs are the generated ones; the reference's frame is its run with the result
  dropped; the idealization rewrote nothing, so `preserves` is trivial.
-/
import proofs.«405953_j13700945674315_1_alg».proof.Defs
import proofs.«405953_j13700945674315_1_alg».proof.Proof.Gen.Kernel
import proofs.«405953_j13700945674315_1_alg».proof.Proof.Gen.Kernel.Frame
import proofs.«405953_j13700945674315_1_alg».proof.Proof.Gen.KernelIdeal
import proofs.«405953_j13700945674315_1_alg».proof.Proof.Gen.KernelIdeal.Frame
import proofs.«405953_j13700945674315_1_alg».proof.Proof.Gen.ReferenceIdeal
import proofs.«405953_j13700945674315_1_alg».proof.Proof.Gen.Pre_finite_inputs
import proofs.«405953_j13700945674315_1_alg».proof.Proof.KernelValue
import proofs.«405953_j13700945674315_1_alg».proof.Proof.RefRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the four arguments both programs end with the same bin sums: the kernel program's
    result is the reference's function of its arguments on the stated domain, and the reference's result is that
    function of its own arguments, which are the same arrays. -/
theorem algebraic : Cert.algebraic_KernelIdeal_ReferenceIdeal := by
  intro m ρ m' ρ' hpre hagree
  refine ⟨_, Cert.KernelIdeal.Result.run m ρ hpre, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
